-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x3 : Shape := ⟨3, ![32, 2048, 3]⟩
abbrev S_ : Shape := ⟨0, ![]⟩

class Facts : Prop where
  bcast_S_S32x2048x3 : S_.BroadcastsInDim S32x2048x3 (![] : Fin 0 → Fin S32x2048x3.rank)
  reducesTo_S32x2048x3_S_d0_1_2 : S32x2048x3.ReducesTo [0, 1, 2] S_
  h_S_ : 0 < S_.numel

variable [Facts]

def fn {F : FTy → Type} [FloatOps F] (main_arg0 : FVec F S32x2048x3 .f32) (main_arg1 : FVec F S32x2048x3 .f32) : IVec S_ 1 :=
  let main_v0 : FVec F S32x2048x3 .f32 := Host.absf main_arg0
  let main_cst : FVec F S_ .f32 := constant S_ .f32 0x7F800000#32
  let main_v1 : FVec F S32x2048x3 .f32 := broadcastInDim S32x2048x3 ![] bcast_S_S32x2048x3 main_cst
  let main_v2 : IVec S32x2048x3 1 := cmpf .olt main_v0 main_v1
  let main_c : IVec S_ 1 := constantI S_ 1 1#1
  let main_v3 : IVec S_ 1 := (fun x v => Host.reduce IntOp.andi x v reducesTo_S32x2048x3_S_d0_1_2 h_S_) main_v2 main_c
  let main_v4 : FVec F S32x2048x3 .f32 := Host.absf main_arg1
  let main_cst_0 : FVec F S_ .f32 := constant S_ .f32 0x7F800000#32
  let main_v5 : FVec F S32x2048x3 .f32 := broadcastInDim S32x2048x3 ![] bcast_S_S32x2048x3 main_cst_0
  let main_v6 : IVec S32x2048x3 1 := cmpf .olt main_v4 main_v5
  let main_c_1 : IVec S_ 1 := constantI S_ 1 1#1
  let main_v7 : IVec S_ 1 := (fun x v => Host.reduce IntOp.andi x v reducesTo_S32x2048x3_S_d0_1_2 h_S_) main_v6 main_c_1
  let main_v8 : IVec S_ 1 := andi main_v3 main_v7
  main_v8
-- ==== Kernel.lean ====
abbrev S32x2048x3 : Shape := ⟨3, ![32, 2048, 3]⟩
abbrev S1x1 : Shape := ⟨2, ![1, 1]⟩
abbrev S1x2048x3 : Shape := ⟨3, ![1, 2048, 3]⟩
abbrev S1x1024x3 : Shape := ⟨3, ![1, 1024, 3]⟩
abbrev S2048x1 : Shape := ⟨2, ![2048, 1]⟩
abbrev S2048x3 : Shape := ⟨2, ![2048, 3]⟩
abbrev S1024x3 : Shape := ⟨2, ![1024, 3]⟩
abbrev S2048 : Shape := ⟨1, ![2048]⟩
abbrev S1024 : Shape := ⟨1, ![1024]⟩
abbrev S1024x1 : Shape := ⟨2, ![1024, 1]⟩
abbrev S2048x5 : Shape := ⟨2, ![2048, 5]⟩
abbrev S1024x5 : Shape := ⟨2, ![1024, 5]⟩
abbrev S2048x1024 : Shape := ⟨2, ![2048, 1024]⟩
abbrev S1x1024 : Shape := ⟨2, ![1, 1024]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S32x2048x3, .f32⟩
  | .hbm, ⟨1, _⟩ => ⟨S32x2048x3, .f32⟩
  | .hbm, ⟨2, _⟩ => ⟨S1x1, .f32⟩
  | .hbm, ⟨3, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1, .f32⟩
  | .local _ .vmem, ⟨5, _⟩ => ⟨S2048x1, .f32⟩
  | _, _ => ⟨S32x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S1x1_S1x1_0_0 : ∀ a, (![0, 0] : Fin 2 → Nat) a + S1x1.size a ≤ S1x1.size a
  h_S1x1 : 0 < S1x1.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S2048x3_S2048 : S2048x3.Reduces [1] S2048
  shapeCasts_S2048_S2048x1 : S2048.ShapeCasts S2048x1
  reduces_S1024x3_S1024 : S1024x3.Reduces [1] S1024
  shapeCasts_S1024_S1024x1 : S1024.ShapeCasts S1024x1
  concatenates_S2048x3_S2048x1_S2048x1_S2048x5_d1 : Shape.Concatenates [S2048x3, S2048x1, S2048x1] S2048x5 1
  bitsLt_bf16_f32 : FTy.bits .bf16 < FTy.bits .f32
  concatenates_S1024x3_S1024x1_S1024x1_S1024x5_d1 : Shape.Concatenates [S1024x3, S1024x1, S1024x1] S1024x5 1
  reduces_S2048x1024_S2048 : S2048x1024.Reduces [1] S2048
  reduces_S2048x1024_S1024 : S2048x1024.Reduces [0] S1024
  shapeCasts_S1024_S1x1024 : S1024.ShapeCasts S1x1024
  reduces_S1x1024_S1 : S1x1024.Reduces [1] S1
  shapeCasts_S1_S1x1 : S1.ShapeCasts S1x1
  shapeCasts_S1x1_S1x1 : S1x1.ShapeCasts S1x1
  reduces_S2048x1_S1 : S2048x1.Reduces [0] S1
  shapeCasts_S1x1_S_ : S1x1.ShapeCasts S_
  dot_S2048x5_S1024x5_S2048x1024_1_1_0_0_n_n_wf : DotDims.WF S2048x5 S1024x5 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S32x2048x3.size a
  hwx0_0 : ∀ i : grid0.Coords, EltTy.bits .f32 = 32 ∨ (Rect.block (s := S32x2048x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S32x2048x3.size a
  hwx0_1 : ∀ i : grid0.Coords, EltTy.bits .f32 = 32 ∨ (Rect.block (s := S32x2048x3) S1x1024x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S2048x5_S1024x5_S2048x1024_1_1_0_0_n_n : DotDims S2048x5 S1024x5 S2048x1024 where
  lhsContracting := [1]
  rhsContracting := [1]
  lhsNonContracting := [0]
  rhsNonContracting := [0]
  lhsBatch := []
  rhsBatch := []
  wf := dot_S2048x5_S1024x5_S2048x1024_1_1_0_0_n_n_wf

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048x3 : Shape := ⟨3, ![32, 2048, 3]⟩
abbrev S_ : Shape := ⟨0, ![]⟩
abbrev S32x2048 : Shape := ⟨2, ![32, 2048]⟩
abbrev S32x2048x2048 : Shape := ⟨3, ![32, 2048, 2048]⟩
abbrev S32x2048x1 : Shape := ⟨3, ![32, 2048, 1]⟩
abbrev S32x1x2048 : Shape := ⟨3, ![32, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S32x2048x3, .f32⟩
  | .hbm, ⟨1, _⟩ => ⟨S32x2048x3, .f32⟩
  | .hbm, ⟨2, _⟩ => ⟨S32x2048x3, .f32⟩
  | .hbm, ⟨3, _⟩ => ⟨S_, .f32⟩
  | .hbm, ⟨4, _⟩ => ⟨S32x2048, .f32⟩
  | .hbm, ⟨5, _⟩ => ⟨S32x2048x3, .f32⟩
  | .hbm, ⟨6, _⟩ => ⟨S_, .f32⟩
  | .hbm, ⟨7, _⟩ => ⟨S32x2048, .f32⟩
  | .hbm, ⟨8, _⟩ => ⟨S32x2048x2048, .f32⟩
  | .hbm, ⟨9, _⟩ => ⟨S32x2048x1, .f32⟩
  | .hbm, ⟨10, _⟩ => ⟨S32x1x2048, .f32⟩
  | .hbm, ⟨11, _⟩ => ⟨S32x2048x2048, .f32⟩
  | .hbm, ⟨12, _⟩ => ⟨S32x2048x2048, .f32⟩
  | .hbm, ⟨13, _⟩ => ⟨S32x2048x2048, .f32⟩
  | .hbm, ⟨14, _⟩ => ⟨S_, .f32⟩
  | .hbm, ⟨15, _⟩ => ⟨S32x2048x2048, .f32⟩
  | .hbm, ⟨16, _⟩ => ⟨S32x2048x2048, .f32⟩
  | .hbm, ⟨17, _⟩ => ⟨S32x2048x2048, .f32⟩
  | .hbm, ⟨18, _⟩ => ⟨S_, .f32⟩
  | .hbm, ⟨19, _⟩ => ⟨S32x2048x2048, .f32⟩
  | .hbm, ⟨20, _⟩ => ⟨S32x2048x2048, .f32⟩
  | .hbm, ⟨21, _⟩ => ⟨S_, .f32⟩
  | .hbm, ⟨22, _⟩ => ⟨S32x2048, .f32⟩
  | .hbm, ⟨23, _⟩ => ⟨S_, .f32⟩
  | .hbm, ⟨24, _⟩ => ⟨S32x2048, .f32⟩
  | .hbm, ⟨25, _⟩ => ⟨S32x2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S32x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  reducesTo_S32x2048x3_S32x2048_d2 : S32x2048x3.ReducesTo [2] S32x2048
  h_S_ : 0 < S_.numel
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  bcast_S_S32x2048x2048 : S_.BroadcastsInDim S32x2048x2048 (![] : Fin 0 → Fin S32x2048x2048.rank)
  reducesTo_S32x2048x2048_S32x2048_d1 : S32x2048x2048.ReducesTo [1] S32x2048
  reducesTo_S32x2048x2048_S32x2048_d2 : S32x2048x2048.ReducesTo [2] S32x2048
  reducesTo_S32x2048_S_d0_1 : S32x2048.ReducesTo [0, 1] S_
  dot_S32x2048x3_S32x2048x3_S32x2048x2048_2_2_1_1_0_0_wf : DotDims.WF S32x2048x3 S32x2048x3 S32x2048x2048 [2] [2] [1] [1] [0] [0]

variable [Facts₀]

def dot_S32x2048x3_S32x2048x3_S32x2048x2048_2_2_1_1_0_0 : DotDims S32x2048x3 S32x2048x3 S32x2048x2048 where
  lhsContracting := [2]
  rhsContracting := [2]
  lhsNonContracting := [1]
  rhsNonContracting := [1]
  lhsBatch := [0]
  rhsBatch := [0]
  wf := dot_S32x2048x3_S32x2048x3_S32x2048x2048_2_2_1_1_0_0_wf

class Facts : Prop extends Facts₀ where

variable [Facts]
-- ==== Proof.Spec.lean ====
/-
  The mathematics of the certificate, with no program in sight.

  A cloud is 2048 points of extended-real 3-space; a batch holds 32 pairs of clouds. For a pair (P, Q) the
  matrix D n m is the squared distance between point n of P and point m of Q, clamped at zero. The loss is
      ( Σ_b Σ_i ( min_n D_b n i  +  min_m D_b i m ) ) / 32 .
  The reference forms D as |p|² + |q|² - 2 p·q. The kernel forms it as ONE five-term product of the augmented
  rows (p, 1, |p|²) and (-2q, |q|², 1), walks the columns of Q in two tiles of 1024, and carries two things
  from grid point to grid point: the running total, and the running row minima of the current batch entry.
  This module names both forms of D, the per-tile quantities, the state after each of the 64 grid points, and
  the reference's total; the laws between them are proved in the modules that import it.
-/
import Idealize.ShloMosaic.PureOps.Ideal
import Idealize.ShloMosaic.Lib.ValueIdx

noncomputable section

namespace Cert.Chamfer

open Idealize.ShloMosaic

/-- A point: three extended-real coordinates. -/
abbrev Pt : Type := Fin 3 → EReal

/-- A matrix of pairwise distances between two clouds of 2048 points: rows are points of the first. -/
abbrev Mat : Type := Fin 2048 → Fin 2048 → EReal

/-- What the kernel carries between grid points: the running total, and the running row minima. -/
abbrev State : Type := EReal × (Fin 2048 → EReal)

/-- The squared norm of a point: the sum of its squared coordinates. -/
def nrm (p : Pt) : EReal := ∑ d : Fin 3, p d * p d

/-- The inner product of two points. -/
def dotp (p q : Pt) : EReal := ∑ d : Fin 3, p d * q d

/-- The clamped squared distance as the kernel forms it: the product of the augmented rows
    (p₀, p₁, p₂, 1, |p|²) and (-2q₀, -2q₁, -2q₂, |q|², 1), five terms added left to right, then `max · 0`. -/
def dK (p q : Pt) : EReal :=
  max (p 0 * (((-2 : ℝ) : EReal) * q 0) + p 1 * (((-2 : ℝ) : EReal) * q 1) + p 2 * (((-2 : ℝ) : EReal) * q 2)
        + 1 * nrm q + nrm p * 1) 0

/-- The clamped squared distance as the reference forms it: (0 + |p|²) + (0 + |q|²) - 2 (p·q), then `max · 0`
    (each `0 +` is the initial value of a sum). -/
def dR (p q : Pt) : EReal :=
  max ((0 + nrm p) + (0 + nrm q) - ((2 : ℝ) : EReal) * dotp p q) 0

/-- A batch of 32 clouds of 2048 points: an array of shape [32, 2048, 3] of extended reals. -/
abbrev Batch : Type := (⟨3, ![32, 2048, 3]⟩ : Shape).Idx → EReal

/-- Point `n` of cloud `b`. -/
def row (A : Batch) (b : Fin 32) (n : Fin 2048) : Pt := fun d => A (ValueIdx.ix3 b n d)

/-- The distance matrices of a pair of batches, entry by entry, in the kernel's form -/
def distK (X Y : Batch) : Fin 32 → Mat := fun b n m => dK (row X b n) (row Y b m)

/-- and in the reference's. -/
def distR (X Y : Batch) : Fin 32 → Mat := fun b n m => dR (row X b n) (row Y b m)

/-- Column `j` of tile `mt`: the second cloud is walked in two tiles of 1024 points. -/
def col (mt : Fin 2) (j : Fin 1024) : Fin 2048 := ⟨1024 * mt.val + j.val, by omega⟩

/-- The least entry of column `i`: the distance from point `i` of the second cloud to the first cloud. -/
def colMin (D : Mat) (i : Fin 2048) : EReal := (Finset.univ : Finset (Fin 2048)).fold min ⊤ (fun n => D n i)

/-- The least entry of row `n`: the distance from point `n` of the first cloud to the second cloud. -/
def rowMin (D : Mat) (n : Fin 2048) : EReal := (Finset.univ : Finset (Fin 2048)).fold min ⊤ (fun m => D n m)

/-- The sum, over the 1024 columns of tile `mt`, of each column's least entry. -/
def tileColSum (D : Mat) (mt : Fin 2) : EReal :=
  ∑ j : Fin 1024, (Finset.univ : Finset (Fin 2048)).fold min ⊤ (fun n => D n (col mt j))

/-- The least entry of row `n` within tile `mt`. -/
def tileRowMin (D : Mat) (mt : Fin 2) (n : Fin 2048) : EReal :=
  (Finset.univ : Finset (Fin 1024)).fold min ⊤ (fun j => D n (col mt j))

/-- A batch entry's first tile, from the total `o` so far: the tile's column sum joins the total, and the row
    minima start afresh from plus infinity. -/
def stepFirst (D : Mat) (o : EReal) : State :=
  (o + tileColSum D 0, fun n => min ⊤ (tileRowMin D 0 n))

/-- A batch entry's second tile: the row minima are completed, the tile's column sum joins the total, and then
    the sum of the completed row minima does. -/
def stepSecond (D : Mat) (s : State) : State :=
  ((s.1 + tileColSum D 1) + ∑ n : Fin 2048, min (s.2 n) (tileRowMin D 1 n), fun n => min (s.2 n) (tileRowMin D 1 n))

/-- The state after grid point `t` (points run over batch entries, two tiles each: point `t` is tile `t % 2` of
    entry `t / 2`). The total starts from zero; the last point scales it by 1/32. -/
def chain (D : Fin 32 → Mat) : (t : ℕ) → t < 64 → State
  | 0, _ => stepFirst (D 0) 0
  | t + 1, h =>
    if (t + 1) % 2 = 0 then
      stepFirst (D ⟨(t + 1) / 2, by omega⟩) (chain D t (Nat.lt_of_succ_lt h)).1
    else if t + 1 = 63 then
      ((stepSecond (D ⟨(t + 1) / 2, by omega⟩) (chain D t (Nat.lt_of_succ_lt h))).1 * ((1 / 32 : ℝ) : EReal),
       (stepSecond (D ⟨(t + 1) / 2, by omega⟩) (chain D t (Nat.lt_of_succ_lt h))).2)
    else
      stepSecond (D ⟨(t + 1) / 2, by omega⟩) (chain D t (Nat.lt_of_succ_lt h))

/-- The reference's total: zero plus the sum over batch entries and indices of the two one-sided distances,
    divided by 32. -/
def refTotal (D : Fin 32 → Mat) : EReal :=
  Ideal.div (0 + ∑ b : Fin 32, ∑ i : Fin 2048, (colMin (D b) i + rowMin (D b) i)) ((32 : ℝ) : EReal)

end Cert.Chamfer

end
-- ==== Proof.KernelBlocks.lean ====
/-
  What the two input windows hold at a grid point. Point `t` works on batch entry `t / 2`: the first window's
  block is the whole first cloud of that entry, the second window's block is tile `t % 2` of its second cloud
  (rows 1024·(t % 2) … 1024·(t % 2) + 1023).
-/
import proofs.«145622_j20203526161089_1_alg».proof.Proof.Gen.KernelIdeal.Frame
import proofs.«145622_j20203526161089_1_alg».proof.Proof.Spec
import Idealize.ShloMosaic.Lib.Pipeline.Value
import Idealize.ShloMosaic.Lib.ValueIdx

noncomputable section

namespace Cert.KernelIdeal.ChamferValue

open Idealize.ShloMosaic Idealize.ShloMosaic.TcCoe Idealize.SL.Sem Idealize.ShloMosaic.ValueIdx
open Cert.KernelIdeal Cert.KernelIdeal.Gen Cert.Chamfer

variable {F : FTy → Type} [FloatOps F]
variable (m : (ℓ : Loc nD τ sig) → Buf (Elt F) ℓ)

/-- The grid has 64 points. -/
theorem N64 : cfg0.N = 64 := N_0

/-- The first window's block index at point `t`: batch entry `t / 2`, the whole cloud. -/
theorem index0 : ∀ t : Fin cfg0.N, win0_0.index t 0 = t.val / 2 ∧ win0_0.index t 1 = 0 ∧ win0_0.index t 2 = 0 :=
  (by decide +kernel : ∀ t : Fin grid0.N, win0_0.index t 0 = t.val / 2 ∧ win0_0.index t 1 = 0 ∧ win0_0.index t 2 = 0)

/-- The second window's block index at point `t`: batch entry `t / 2`, tile `t % 2`. -/
theorem index1 : ∀ t : Fin cfg0.N, win0_1.index t 0 = t.val / 2 ∧ win0_1.index t 1 = t.val % 2 ∧ win0_1.index t 2 = 0 :=
  (by decide +kernel : ∀ t : Fin grid0.N, win0_1.index t 0 = t.val / 2 ∧ win0_1.index t 1 = t.val % 2 ∧ win0_1.index t 2 = 0)

/-- The batch entry a grid point works on. -/
def entry (t : Fin cfg0.N) : Fin 32 := ⟨t.val / 2, by have h : t.val < 64 := lt_of_lt_of_eq t.isLt N64; omega⟩

/-- The tile of the second cloud a grid point works on. -/
def tile (t : Fin cfg0.N) : Fin 2 := ⟨t.val % 2, by omega⟩

/-- Row `n` of the first window's block at point `t` is point `n` of the first cloud of entry `t / 2`. -/
theorem iblk0_apply (c : Dev nD) (t : Fin cfg0.N) (n : Fin 2048) (d : Fin 3) :
    (iblk m c 0 t : Vec F S1x2048x3 .f32) (ix3 (0 : Fin 1) n d)
      = m ((c : Thread nD τ).loc main_arg0) (ix3 (entry t) n d) := by
  unfold iblk
  rw [View.read_apply]
  refine (congrFun (V_main_arg0 m c) _).trans ?_
  congr 1
  funext a
  apply Fin.ext
  have hi := index0 t
  match a with
  | ⟨0, _⟩ => show win0_0.index t 0 * 1 + 1 * (0 : Nat) = t.val / 2; rw [hi.1]; omega
  | ⟨1, _⟩ => show win0_0.index t 1 * 2048 + 1 * n.val = n.val; rw [hi.2.1]; omega
  | ⟨2, _⟩ => show win0_0.index t 2 * 3 + 1 * d.val = d.val; rw [hi.2.2]; omega

/-- Row `j` of the second window's block at point `t` is point `1024·(t % 2) + j` of the second cloud of entry `t / 2`. -/
theorem iblk1_apply (c : Dev nD) (t : Fin cfg0.N) (j : Fin 1024) (d : Fin 3) :
    (iblk m c 1 t : Vec F S1x1024x3 .f32) (ix3 (0 : Fin 1) j d)
      = m ((c : Thread nD τ).loc main_arg1) (ix3 (entry t) (col (tile t) j) d) := by
  unfold iblk
  rw [View.read_apply]
  refine (congrFun (V_main_arg1 m c) _).trans ?_
  congr 1
  funext a
  apply Fin.ext
  have hi := index1 t
  match a with
  | ⟨0, _⟩ => show win0_1.index t 0 * 1 + 1 * (0 : Nat) = t.val / 2; rw [hi.1]; omega
  | ⟨1, _⟩ => show win0_1.index t 1 * 1024 + 1 * j.val = 1024 * (t.val % 2) + j.val; rw [hi.2.1]; omega
  | ⟨2, _⟩ => show win0_1.index t 2 * 3 + 1 * d.val = d.val; rw [hi.2.2]; omega

end Cert.KernelIdeal.ChamferValue

end
-- ==== Proof.KernelPieces.lean ====
/-
  What each of the body's four control cases leaves behind, as values: the output block and the carried row
  minima, each a stored value of the two input blocks and of what the point before left.

  Case A is the grid's first point (the total is reset to zero and the row minima to plus infinity before the
  tile joins them); case C is the first tile of a later batch entry (only the row minima are reset); case B is a
  second tile (the completed row minima are summed into the total); case D is the last point (as B, then the
  total is scaled).
-/
import proofs.«145622_j20203526161089_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

/-- The zero offsets of a rank-two block, as the constant function. -/
theorem off2_zero : (![0, 0] : Fin 2 → Nat) = fun _ => 0 := funext fun a => by fin_cases a <;> rfl

/-- The zero offsets of a rank-three block, as the constant function. -/
theorem off3_zero : (![0, 0, 0] : Fin 3 → Nat) = fun _ => 0 := funext fun a => by fin_cases a <;> rfl

/-- Case A, the output: zero, then the tile's column minima summed onto it. -/
theorem out_A (c : Dev nD) (i : grid0.Coords) (arg2 : Memref sig .tc .vmem S1x2048x3 .f32) (harg2 : arg2.IsWhole) (arg3 : Memref sig .tc .vmem S1x1024x3 .f32) (harg3 : arg3.IsWhole) (arg4 : Memref sig .tc .vmem S1x1 .f32) (harg4 : arg4.IsWhole) (arg5 : Memref sig .tc .vmem S2048x1 .f32) (harg5 : arg5.IsWhole) (hc0 : cond0_0 i) (hc1 : cond0_1 i) (hc2 : ¬cond0_2 i) (hc3 : ¬cond0_3 i)
    (x0 : Vec F S1x2048x3 .f32) (x1 : Vec F S1x1024x3 .f32) :
    out0_A_2 c i arg2 harg2 arg3 harg3 arg4 harg4 arg5 harg5 hc0 hc1 hc2 hc3 x0 x1 = k0_pay2 (k0_pay9 x0 x1) (k0_pay5 (F := F)) := by
  unfold out0_A_2
  rw [View.read_writes_eq_canon _ _ _ (cover0_A_2 c i arg2 harg2 arg3 harg3 arg4 harg4 arg5 harg5 hc0 hc1 hc2 hc3 x0 x1)]
  unfold kernelRun0_A
  dsimp only
  sl_unfold_words
  rw [View.canon_cons_unit_zero (S := S1x1) off2_zero, View.readCov_unit_zero (S := S1x1) _ off2_zero]
  simp only [View.readAt_eq_ld, harg2.read_unread, harg3.read_unread, harg4.read_unread, harg5.read_unread,
    View.ld_unit_zero (S := S1x1) off2_zero, View.ld_unit_zero (S := S2048x1) off2_zero, View.ld_unit_zero (S := S1x2048x3) off3_zero, View.ld_unit_zero (S := S1x1024x3) off3_zero]

/-- Case A, the carried row minima: plus infinity, then the tile's row minima taken against it. -/
theorem sout_A (c : Dev nD) (i : grid0.Coords) (arg2 : Memref sig .tc .vmem S1x2048x3 .f32) (harg2 : arg2.IsWhole) (arg3 : Memref sig .tc .vmem S1x1024x3 .f32) (harg3 : arg3.IsWhole) (arg4 : Memref sig .tc .vmem S1x1 .f32) (harg4 : arg4.IsWhole) (arg5 : Memref sig .tc .vmem S2048x1 .f32) (harg5 : arg5.IsWhole) (hc0 : cond0_0 i) (hc1 : cond0_1 i) (hc2 : ¬cond0_2 i) (hc3 : ¬cond0_3 i)
    (x0 : Vec F S1x2048x3 .f32) (x1 : Vec F S1x1024x3 .f32) :
    sout0_A_0 c i arg2 harg2 arg3 harg3 arg4 harg4 arg5 harg5 hc0 hc1 hc2 hc3 x0 x1 = k0_pay1 (k0_pay8 x0 x1) (k0_pay6 (F := F)) := by
  unfold sout0_A_0
  rw [View.read_writes_eq_canon _ _ _ (scover0_A_0 c i arg2 harg2 arg3 harg3 arg4 harg4 arg5 harg5 hc0 hc1 hc2 hc3 x0 x1)]
  unfold kernelRun0_A
  dsimp only
  sl_unfold_words
  rw [View.canon_cons_unit_zero (S := S2048x1) off2_zero, View.readCov_unit_zero (S := S2048x1) _ off2_zero]
  simp only [View.readAt_eq_ld, harg2.read_unread, harg3.read_unread, harg4.read_unread, harg5.read_unread,
    View.ld_unit_zero (S := S1x1) off2_zero, View.ld_unit_zero (S := S2048x1) off2_zero, View.ld_unit_zero (S := S1x2048x3) off3_zero, View.ld_unit_zero (S := S1x1024x3) off3_zero]

/-- Case C, the output: the tile's column minima summed onto what the point before left. -/
theorem out_C (c : Dev nD) (i : grid0.Coords) (arg2 : Memref sig .tc .vmem S1x2048x3 .f32) (harg2 : arg2.IsWhole) (arg3 : Memref sig .tc .vmem S1x1024x3 .f32) (harg3 : arg3.IsWhole) (arg4 : Memref sig .tc .vmem S1x1 .f32) (harg4 : arg4.IsWhole) (arg5 : Memref sig .tc .vmem S2048x1 .f32) (harg5 : arg5.IsWhole) (hc0 : ¬cond0_0 i) (hc1 : cond0_1 i) (hc2 : ¬cond0_2 i) (hc3 : ¬cond0_3 i)
    (x0 : Vec F S1x2048x3 .f32) (x1 : Vec F S1x1024x3 .f32) (xo2 : Vec F S1x1 .f32) :
    out0_C_2 c i arg2 harg2 arg3 harg3 arg4 harg4 arg5 harg5 hc0 hc1 hc2 hc3 x0 x1 xo2 = k0_pay2 (k0_pay9 x0 x1) xo2 := by
  unfold out0_C_2
  rw [View.read_writes_eq_canon _ _ _ (cover0_C_2 c i arg2 harg2 arg3 harg3 arg4 harg4 arg5 harg5 hc0 hc1 hc2 hc3 x0 x1 xo2)]
  unfold kernelRun0_C
  dsimp only
  sl_unfold_words
  rw [View.canon_unit_zero (S := S1x1) off2_zero]
  simp only [View.readAt_eq_ld, harg2.read_unread, harg3.read_unread, harg4.read_unread, harg5.read_unread,
    View.ld_unit_zero (S := S1x1) off2_zero, View.ld_unit_zero (S := S2048x1) off2_zero, View.ld_unit_zero (S := S1x2048x3) off3_zero, View.ld_unit_zero (S := S1x1024x3) off3_zero]

/-- Case C, the carried row minima: reset, then the tile's row minima taken against plus infinity. -/
theorem sout_C (c : Dev nD) (i : grid0.Coords) (arg2 : Memref sig .tc .vmem S1x2048x3 .f32) (harg2 : arg2.IsWhole) (arg3 : Memref sig .tc .vmem S1x1024x3 .f32) (harg3 : arg3.IsWhole) (arg4 : Memref sig .tc .vmem S1x1 .f32) (harg4 : arg4.IsWhole) (arg5 : Memref sig .tc .vmem S2048x1 .f32) (harg5 : arg5.IsWhole) (hc0 : ¬cond0_0 i) (hc1 : cond0_1 i) (hc2 : ¬cond0_2 i) (hc3 : ¬cond0_3 i)
    (x0 : Vec F S1x2048x3 .f32) (x1 : Vec F S1x1024x3 .f32) (xo2 : Vec F S1x1 .f32) :
    sout0_C_0 c i arg2 harg2 arg3 harg3 arg4 harg4 arg5 harg5 hc0 hc1 hc2 hc3 x0 x1 xo2 = k0_pay1 (k0_pay8 x0 x1) (k0_pay6 (F := F)) := by
  unfold sout0_C_0
  rw [View.read_writes_eq_canon _ _ _ (scover0_C_0 c i arg2 harg2 arg3 harg3 arg4 harg4 arg5 harg5 hc0 hc1 hc2 hc3 x0 x1 xo2)]
  unfold kernelRun0_C
  dsimp only
  sl_unfold_words
  rw [View.canon_cons_unit_zero (S := S2048x1) off2_zero, View.readCov_unit_zero (S := S2048x1) _ off2_zero]
  simp only [View.readAt_eq_ld, harg2.read_unread, harg3.read_unread, harg4.read_unread, harg5.read_unread,
    View.ld_unit_zero (S := S1x1) off2_zero, View.ld_unit_zero (S := S2048x1) off2_zero, View.ld_unit_zero (S := S1x2048x3) off3_zero, View.ld_unit_zero (S := S1x1024x3) off3_zero]

/-- Case B, the output: the tile's column minima, then the completed row minima, summed onto what was left. -/
theorem out_B (c : Dev nD) (i : grid0.Coords) (arg2 : Memref sig .tc .vmem S1x2048x3 .f32) (harg2 : arg2.IsWhole) (arg3 : Memref sig .tc .vmem S1x1024x3 .f32) (harg3 : arg3.IsWhole) (arg4 : Memref sig .tc .vmem S1x1 .f32) (harg4 : arg4.IsWhole) (arg5 : Memref sig .tc .vmem S2048x1 .f32) (harg5 : arg5.IsWhole) (hc0 : ¬cond0_0 i) (hc1 : ¬cond0_1 i) (hc2 : cond0_2 i) (hc3 : ¬cond0_3 i)
    (x0 : Vec F S1x2048x3 .f32) (x1 : Vec F S1x1024x3 .f32) (xo2 : Vec F S1x1 .f32) (xs0 : Vec F S2048x1 .f32) :
    out0_B_2 c i arg2 harg2 arg3 harg3 arg4 harg4 arg5 harg5 hc0 hc1 hc2 hc3 x0 x1 xo2 xs0 = k0_pay3 (k0_pay1 (k0_pay8 x0 x1) xs0) (k0_pay2 (k0_pay9 x0 x1) xo2) := by
  unfold out0_B_2
  rw [View.read_writes_eq_canon _ _ _ (cover0_B_2 c i arg2 harg2 arg3 harg3 arg4 harg4 arg5 harg5 hc0 hc1 hc2 hc3 x0 x1 xo2 xs0)]
  unfold kernelRun0_B
  dsimp only
  sl_unfold_words
  rw [View.canon_cons_unit_zero (S := S1x1) off2_zero, View.readCov_unit_zero (S := S2048x1) _ off2_zero,
    View.readCov_unit_zero (S := S1x1) _ off2_zero]
  simp only [View.readAt_eq_ld, harg2.read_unread, harg3.read_unread, harg4.read_unread, harg5.read_unread,
    View.ld_unit_zero (S := S1x1) off2_zero, View.ld_unit_zero (S := S2048x1) off2_zero, View.ld_unit_zero (S := S1x2048x3) off3_zero, View.ld_unit_zero (S := S1x1024x3) off3_zero]

/-- Case B, the carried row minima: the tile's taken against what the point before left. -/
theorem sout_B (c : Dev nD) (i : grid0.Coords) (arg2 : Memref sig .tc .vmem S1x2048x3 .f32) (harg2 : arg2.IsWhole) (arg3 : Memref sig .tc .vmem S1x1024x3 .f32) (harg3 : arg3.IsWhole) (arg4 : Memref sig .tc .vmem S1x1 .f32) (harg4 : arg4.IsWhole) (arg5 : Memref sig .tc .vmem S2048x1 .f32) (harg5 : arg5.IsWhole) (hc0 : ¬cond0_0 i) (hc1 : ¬cond0_1 i) (hc2 : cond0_2 i) (hc3 : ¬cond0_3 i)
    (x0 : Vec F S1x2048x3 .f32) (x1 : Vec F S1x1024x3 .f32) (xo2 : Vec F S1x1 .f32) (xs0 : Vec F S2048x1 .f32) :
    sout0_B_0 c i arg2 harg2 arg3 harg3 arg4 harg4 arg5 harg5 hc0 hc1 hc2 hc3 x0 x1 xo2 xs0 = k0_pay1 (k0_pay8 x0 x1) xs0 := by
  unfold sout0_B_0
  rw [View.read_writes_eq_canon _ _ _ (scover0_B_0 c i arg2 harg2 arg3 harg3 arg4 harg4 arg5 harg5 hc0 hc1 hc2 hc3 x0 x1 xo2 xs0)]
  unfold kernelRun0_B
  dsimp only
  sl_unfold_words
  rw [View.canon_unit_zero (S := S2048x1) off2_zero]
  simp only [View.readAt_eq_ld, harg2.read_unread, harg3.read_unread, harg4.read_unread, harg5.read_unread,
    View.ld_unit_zero (S := S1x1) off2_zero, View.ld_unit_zero (S := S2048x1) off2_zero, View.ld_unit_zero (S := S1x2048x3) off3_zero, View.ld_unit_zero (S := S1x1024x3) off3_zero]

/-- Case D, the output: as case B, then scaled. -/
theorem out_D (c : Dev nD) (i : grid0.Coords) (arg2 : Memref sig .tc .vmem S1x2048x3 .f32) (harg2 : arg2.IsWhole) (arg3 : Memref sig .tc .vmem S1x1024x3 .f32) (harg3 : arg3.IsWhole) (arg4 : Memref sig .tc .vmem S1x1 .f32) (harg4 : arg4.IsWhole) (arg5 : Memref sig .tc .vmem S2048x1 .f32) (harg5 : arg5.IsWhole) (hc0 : ¬cond0_0 i) (hc1 : ¬cond0_1 i) (hc2 : cond0_2 i) (hc3 : cond0_3 i)
    (x0 : Vec F S1x2048x3 .f32) (x1 : Vec F S1x1024x3 .f32) (xo2 : Vec F S1x1 .f32) (xs0 : Vec F S2048x1 .f32) :
    out0_D_2 c i arg2 harg2 arg3 harg3 arg4 harg4 arg5 harg5 hc0 hc1 hc2 hc3 x0 x1 xo2 xs0 = k0_pay4 (k0_pay3 (k0_pay1 (k0_pay8 x0 x1) xs0) (k0_pay2 (k0_pay9 x0 x1) xo2)) := by
  unfold out0_D_2
  rw [View.read_writes_eq_canon _ _ _ (cover0_D_2 c i arg2 harg2 arg3 harg3 arg4 harg4 arg5 harg5 hc0 hc1 hc2 hc3 x0 x1 xo2 xs0)]
  unfold kernelRun0_D
  dsimp only
  sl_unfold_words
  rw [View.canon_cons_unit_zero (S := S1x1) off2_zero, View.readCov_cons_toLoadRect,
    View.readCov_unit_zero (S := S2048x1) _ off2_zero, View.readCov_unit_zero (S := S1x1) _ off2_zero]
  simp only [View.readAt_eq_ld, harg2.read_unread, harg3.read_unread, harg4.read_unread, harg5.read_unread,
    View.ld_unit_zero (S := S1x1) off2_zero, View.ld_unit_zero (S := S2048x1) off2_zero, View.ld_unit_zero (S := S1x2048x3) off3_zero, View.ld_unit_zero (S := S1x1024x3) off3_zero]

/-- Case D, the carried row minima: as case B. -/
theorem sout_D (c : Dev nD) (i : grid0.Coords) (arg2 : Memref sig .tc .vmem S1x2048x3 .f32) (harg2 : arg2.IsWhole) (arg3 : Memref sig .tc .vmem S1x1024x3 .f32) (harg3 : arg3.IsWhole) (arg4 : Memref sig .tc .vmem S1x1 .f32) (harg4 : arg4.IsWhole) (arg5 : Memref sig .tc .vmem S2048x1 .f32) (harg5 : arg5.IsWhole) (hc0 : ¬cond0_0 i) (hc1 : ¬cond0_1 i) (hc2 : cond0_2 i) (hc3 : cond0_3 i)
    (x0 : Vec F S1x2048x3 .f32) (x1 : Vec F S1x1024x3 .f32) (xo2 : Vec F S1x1 .f32) (xs0 : Vec F S2048x1 .f32) :
    sout0_D_0 c i arg2 harg2 arg3 harg3 arg4 harg4 arg5 harg5 hc0 hc1 hc2 hc3 x0 x1 xo2 xs0 = k0_pay1 (k0_pay8 x0 x1) xs0 := by
  unfold sout0_D_0
  rw [View.read_writes_eq_canon _ _ _ (scover0_D_0 c i arg2 harg2 arg3 harg3 arg4 harg4 arg5 harg5 hc0 hc1 hc2 hc3 x0 x1 xo2 xs0)]
  unfold kernelRun0_D
  dsimp only
  sl_unfold_words
  rw [View.canon_unit_zero (S := S2048x1) off2_zero]
  simp only [View.readAt_eq_ld, harg2.read_unread, harg3.read_unread, harg4.read_unread, harg5.read_unread,
    View.ld_unit_zero (S := S1x1) off2_zero, View.ld_unit_zero (S := S2048x1) off2_zero, View.ld_unit_zero (S := S1x2048x3) off3_zero, View.ld_unit_zero (S := S1x1024x3) off3_zero]

end Cert.KernelIdeal.Pieces

end
-- ==== Proof.Consts.lean ====
/-
  The float literals the two programs spell, as the extended reals their bit patterns denote at the ideal
  instance: zero, one, minus two, two, thirty-two, one thirty-second, and plus infinity. Every other module
  reads its constants here and unfolds no bit pattern itself.
-/
import Idealize.ShloMosaic.PureOps.Ideal

noncomputable section

namespace Cert.Chamfer.Consts

open Idealize.ShloMosaic

/-- The pattern of `+0.0` denotes `0`. -/
theorem w_zero : Ideal.ofBits .f32 0x00000000#32 = 0 := by
  simp [Ideal.ofBits, Ideal.ieee]

/-- The pattern of `1.0` denotes `1`. -/
theorem w_one : Ideal.ofBits .f32 0x3F800000#32 = 1 := by
  simp [Ideal.ofBits, Ideal.ieee, -EReal.coe_mul]; norm_num

/-- The pattern of `-2.0` denotes the real `-2`. -/
theorem w_negTwo : Ideal.ofBits .f32 0xC0000000#32 = ((-2 : ℝ) : EReal) := by
  simp [Ideal.ofBits, Ideal.ieee, -EReal.coe_mul]; norm_num

/-- The pattern of `2.0` denotes the real `2`. -/
theorem w_two : Ideal.ofBits .f32 0x40000000#32 = ((2 : ℝ) : EReal) := by
  simp [Ideal.ofBits, Ideal.ieee, -EReal.coe_mul]; norm_num

/-- The pattern of `32.0` denotes the real `32`. -/
theorem w_thirtyTwo : Ideal.ofBits .f32 0x42000000#32 = ((32 : ℝ) : EReal) := by
  simp [Ideal.ofBits, Ideal.ieee, -EReal.coe_mul]; norm_num

/-- The pattern of `0.03125` denotes the real `1/32`: a power of two, so the binary value is exact. -/
theorem w_invThirtyTwo : Ideal.ofBits .f32 0x3D000000#32 = ((1 / 32 : ℝ) : EReal) := by
  simp [Ideal.ofBits, Ideal.ieee, -EReal.coe_mul]; norm_num

/-- The pattern of `+inf` denotes the top of the extended reals. -/
theorem w_top : Ideal.ofBits .f32 0x7F800000#32 = ⊤ := by
  simp [Ideal.ofBits, Ideal.ieee]

end Cert.Chamfer.Consts

end
-- ==== Proof.KernelPayloads.lean ====
/-
  The body's other stored values read at an index: the tile's row and column minima, the running row minima,
  the running total, the final scaling, and the two reset values.
-/
import proofs.«145622_j20203526161089_1_alg».proof.Proof.Gen.KernelIdeal.Skeleton
import proofs.«145622_j20203526161089_1_alg».proof.Proof.Spec
import proofs.«145622_j20203526161089_1_alg».proof.Proof.Consts
import Idealize.ShloMosaic.PureOps.Ideal.Laws
import Idealize.ShloMosaic.PureOps.Reduce
import Idealize.ShloMosaic.Lib.Pipeline.Value
import Idealize.ShloMosaic.Lib.ValueIdx
import Idealize.ShloMosaic.Lib.ValueLayout

noncomputable section

namespace Cert.KernelIdeal.Payloads

open Idealize.ShloMosaic Idealize.ShloMosaic.ValueIdx Cert.KernelIdeal Cert.KernelIdeal.Gen Cert.Chamfer

/-- A vector cast to a column: an `[a]` array cast to `[a, 1]` reads, at `(i, u)`, the operand at `i`, whatever the
    unit coordinate `u`: the two row-major positions are `i` and `i * 1 + 0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A minimum reduction over ONE axis, read at the extended reals: the fold of `min` from the accumulator's value
    over that axis's coordinates. First the reduction is the fold over the set of source indices lying over the
    result index (min commutes and associates), then that set is the image of the axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (Ideal.ofBits φ acc) (src ∘ h.lift j) := by
  refine (multiReduction_minimumf_eq_fold src acc h hφ hacc j).trans ?_
  exact h.fold_filter_drop_single _ _ src j

/-- Row n of the tile's row minima: the least entry of row n of the tile, from plus infinity. -/
theorem pay8_apply (x0 : FVec Ideal S1x2048x3 .f32) (x1 : FVec Ideal S1x1024x3 .f32) (n : Fin 2048) :
    k0_pay8 (F := Ideal) x0 x1 (ix2 n (0 : Fin 1))
      = (Finset.univ : Finset (Fin 1024)).fold min ⊤ (fun j => k0_pay7 (F := Ideal) x0 x1 (ix2 n j)) := by
  unfold k0_pay8
  refine (shapeCast_a_a1_apply _ shapeCasts_S2048_S2048x1 n 0).trans ?_
  refine (multiReduction_minimumf_single _ _ reduces_S2048x1024_S2048 _ _ (ix1 n)).trans ?_
  rw [Consts.w_top]
  show (Finset.univ : Finset (Fin 1024)).fold min ⊤ (k0_pay7 (F := Ideal) x0 x1 ∘ reduces_S2048x1024_S2048.lift (ix1 n)) = _
  exact Finset.fold_congr fun j _ => congrArg (k0_pay7 (F := Ideal) x0 x1) (Shape.idx_ext₂ rfl rfl)

/-- Column j of the tile's column minima: the least entry of column j of the tile, from plus infinity. -/
theorem pay9_apply (x0 : FVec Ideal S1x2048x3 .f32) (x1 : FVec Ideal S1x1024x3 .f32) (j : Fin 1024) :
    k0_pay9 (F := Ideal) x0 x1 (ix2 (0 : Fin 1) j)
      = (Finset.univ : Finset (Fin 2048)).fold min ⊤ (fun n => k0_pay7 (F := Ideal) x0 x1 (ix2 n j)) := by
  unfold k0_pay9
  refine (shapeCast_a_1a_apply _ shapeCasts_S1024_S1x1024 0 j).trans ?_
  refine (multiReduction_minimumf_single _ _ reduces_S2048x1024_S1024 _ _ (ix1 j)).trans ?_
  rw [Consts.w_top]
  show (Finset.univ : Finset (Fin 2048)).fold min ⊤ (k0_pay7 (F := Ideal) x0 x1 ∘ reduces_S2048x1024_S1024.lift (ix1 j)) = _
  exact Finset.fold_congr fun n _ => congrArg (k0_pay7 (F := Ideal) x0 x1) (Shape.idx_ext₂ rfl rfl)

/-- The running row minima after a tile: the entrywise minimum of what was carried and the tile's. -/
theorem pay1_apply (v30 v33 : FVec Ideal S2048x1 .f32) (n : Fin 2048) :
    k0_pay1 (F := Ideal) v30 v33 (ix2 n (0 : Fin 1)) = min (v33 (ix2 n (0 : Fin 1))) (v30 (ix2 n (0 : Fin 1))) := by
  unfold k0_pay1
  exact congrFun (shapeCast_self (minimumf v33 v30) shapeCasts_S2048x1_S2048x1) (ix2 n (0 : Fin 1))

/-- The running total after a tile's column minima join it. -/
theorem pay2_apply (v32 : FVec Ideal S1x1024 .f32) (v40 : FVec Ideal S1x1 .f32) :
    k0_pay2 (F := Ideal) v32 v40 (ix2 (0 : Fin 1) (0 : Fin 1))
      = v40 (ix2 (0 : Fin 1) (0 : Fin 1)) + ∑ j : Fin 1024, v32 (ix2 (0 : Fin 1) j) := by
  unfold k0_pay2
  refine (addf_apply _ _ _).trans ?_
  refine congrArg₂ (· + ·) (congrFun (shapeCast_self v40 shapeCasts_S1x1_S1x1) _) ?_
  refine (shapeCast_a_a1_apply _ shapeCasts_S1_S1x1 0 0).trans ?_
  refine (Ideal.multiReduction_add_single v32 _ reduces_S1x1024_S1 _ _ (ix1 0)).trans ?_
  exact Finset.sum_congr rfl fun j _ => congrArg v32 (Shape.idx_ext₂ rfl rfl)

/-- The running total after the completed row minima join it. -/
theorem pay3_apply (v52 : FVec Ideal S2048x1 .f32) (v55 : FVec Ideal S1x1 .f32) :
    k0_pay3 (F := Ideal) v52 v55 (ix2 (0 : Fin 1) (0 : Fin 1))
      = v55 (ix2 (0 : Fin 1) (0 : Fin 1)) + ∑ n : Fin 2048, v52 (ix2 n (0 : Fin 1)) := by
  unfold k0_pay3
  refine (addf_apply _ _ _).trans ?_
  refine congrArg₂ (· + ·) (congrFun (shapeCast_self v55 shapeCasts_S1x1_S1x1) _) ?_
  refine (shapeCast_a_a1_apply _ shapeCasts_S1_S1x1 0 0).trans ?_
  refine (Ideal.multiReduction_add_single v52 _ reduces_S2048x1_S1 _ _ (ix1 0)).trans ?_
  exact Finset.sum_congr rfl fun n _ => congrArg v52 (Shape.idx_ext₂ rfl rfl)

/-- The last point's scaling by one thirty-second. -/
theorem pay4_apply (v52 : FVec Ideal S1x1 .f32) :
    k0_pay4 (F := Ideal) v52 (ix2 (0 : Fin 1) (0 : Fin 1)) = v52 (ix2 (0 : Fin 1) (0 : Fin 1)) * ((1 / 32 : ℝ) : EReal) := by
  unfold k0_pay4
  refine (mulf_apply _ _ _).trans ?_
  exact congrArg₂ (· * ·) (congrFun (shapeCast_self v52 shapeCasts_S1x1_S1x1) _) Consts.w_invThirtyTwo

/-- The total is reset to zero. -/
theorem pay5_apply (i : S1x1.Idx) : (k0_pay5 (F := Ideal)) i = 0 := by
  unfold k0_pay5
  exact Consts.w_zero

/-- The row minima are reset to plus infinity. -/
theorem pay6_apply (i : S2048x1.Idx) : (k0_pay6 (F := Ideal)) i = ⊤ := by
  unfold k0_pay6
  exact (congrFun (shapeCast_self _ shapeCasts_S2048x1_S2048x1) i).trans Consts.w_top

end Cert.KernelIdeal.Payloads

end
-- ==== Proof.KernelDist.lean ====
/-
  The kernel's distance tile read at an entry: the augmented matrix product, clamped.
-/
import proofs.«145622_j20203526161089_1_alg».proof.Proof.Gen.KernelIdeal.Skeleton
import proofs.«145622_j20203526161089_1_alg».proof.Proof.Spec
import proofs.«145622_j20203526161089_1_alg».proof.Proof.Consts
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Payloads

open Idealize.ShloMosaic Idealize.ShloMosaic.ValueIdx Cert.KernelIdeal Cert.KernelIdeal.Gen Cert.Chamfer

/-! The pieces of the reading: the column cast, the lane sum, the three-piece concatenation at a column, the product at an
    entry, and the two augmented matrices row by row. -/

namespace Dist

/-- A vector cast to a one-column matrix reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- The sum over the three lanes of a row of squares. -/
theorem sqsum_apply {a : ℕ} (y : FVec Ideal ⟨2, ![a, 3]⟩ .f32)
    (h : (⟨2, ![a, 3]⟩ : Shape).Reduces [1] ⟨1, ![a]⟩) (hφ : FKind.Formats .f32)
    (hacc : (0x00000000#32 : BitVec 32) = FKind.add.neutral .f32 hφ) (r : Fin a) :
    multiReduction .add [1] ⟨1, ![a]⟩ (mulf y y) 0x00000000#32 h hφ hacc (ix1 r)
      = ∑ d : Fin 3, y (ix2 r d) * y (ix2 r d) := by
  refine (Ideal.multiReduction_add_single (mulf y y) 0x00000000#32 h hφ hacc (ix1 r)).trans ?_
  refine Finset.sum_congr rfl fun d _ => ?_
  have e : h.lift (ix1 r) d = ix2 r d := funext fun c => Fin.ext (by
    match c with
    | ⟨0, _⟩ => rfl
    | ⟨1, _⟩ => rfl)
  rw [e]
  rfl

section Concat
variable {α : Type} {a : ℕ}

/-- A row of three columns, one column and one column laid side by side: the first three columns are the first piece's. -/
theorem cat311_left (A : (⟨2, ![a, 3]⟩ : Shape).Idx → α) (B C : (⟨2, ![a, 1]⟩ : Shape).Idx → α)
    (h : Shape.Concatenates [(⟨2, ![a, 3]⟩ : Shape), ⟨2, ![a, 1]⟩, ⟨2, ![a, 1]⟩] ⟨2, ![a, 5]⟩ 1)
    (n : Fin a) (k : Fin 5) (d : Fin 3) (hd : d.val = k.val) :
    concatenate ⟨2, ![a, 5]⟩ 1 [⟨⟨2, ![a, 3]⟩, A⟩, ⟨⟨2, ![a, 1]⟩, B⟩, ⟨⟨2, ![a, 1]⟩, C⟩] h (ix2 n k) = A (ix2 n d) :=
  concatenate_apply_piece (t := ⟨2, ![a, 5]⟩) 1 [⟨⟨2, ![a, 3]⟩, A⟩, ⟨⟨2, ![a, 1]⟩, B⟩, ⟨⟨2, ![a, 1]⟩, C⟩] h (ix2 n k)
    0 (by show 0 < 3; omega) ⟨2, ![a, 3]⟩ A rfl rfl 0 rfl (ix2 n d)
    (fun b hb => by
      match b with
      | ⟨0, _⟩ => rfl
      | ⟨1, _⟩ => exact absurd rfl hb)
    (by show 0 + d.val = k.val; omega)

/-- The fourth column is the second piece's one column. -/
theorem cat311_mid (A : (⟨2, ![a, 3]⟩ : Shape).Idx → α) (B C : (⟨2, ![a, 1]⟩ : Shape).Idx → α)
    (h : Shape.Concatenates [(⟨2, ![a, 3]⟩ : Shape), ⟨2, ![a, 1]⟩, ⟨2, ![a, 1]⟩] ⟨2, ![a, 5]⟩ 1)
    (n : Fin a) (k : Fin 5) (hk : k.val = 3) :
    concatenate ⟨2, ![a, 5]⟩ 1 [⟨⟨2, ![a, 3]⟩, A⟩, ⟨⟨2, ![a, 1]⟩, B⟩, ⟨⟨2, ![a, 1]⟩, C⟩] h (ix2 n k) = B (ix2 n (0 : Fin 1)) :=
  concatenate_apply_piece (t := ⟨2, ![a, 5]⟩) 1 [⟨⟨2, ![a, 3]⟩, A⟩, ⟨⟨2, ![a, 1]⟩, B⟩, ⟨⟨2, ![a, 1]⟩, C⟩] h (ix2 n k)
    1 (by show 1 < 3; omega) ⟨2, ![a, 1]⟩ B rfl rfl 3 rfl (ix2 n (0 : Fin 1))
    (fun b hb => by
      match b with
      | ⟨0, _⟩ => rfl
      | ⟨1, _⟩ => exact absurd rfl hb)
    (by show 3 + 0 = k.val; omega)

/-- The fifth column is the third piece's one column. -/
theorem cat311_right (A : (⟨2, ![a, 3]⟩ : Shape).Idx → α) (B C : (⟨2, ![a, 1]⟩ : Shape).Idx → α)
    (h : Shape.Concatenates [(⟨2, ![a, 3]⟩ : Shape), ⟨2, ![a, 1]⟩, ⟨2, ![a, 1]⟩] ⟨2, ![a, 5]⟩ 1)
    (n : Fin a) (k : Fin 5) (hk : k.val = 4) :
    concatenate ⟨2, ![a, 5]⟩ 1 [⟨⟨2, ![a, 3]⟩, A⟩, ⟨⟨2, ![a, 1]⟩, B⟩, ⟨⟨2, ![a, 1]⟩, C⟩] h (ix2 n k) = C (ix2 n (0 : Fin 1)) :=
  concatenate_apply_piece (t := ⟨2, ![a, 5]⟩) 1 [⟨⟨2, ![a, 3]⟩, A⟩, ⟨⟨2, ![a, 1]⟩, B⟩, ⟨⟨2, ![a, 1]⟩, C⟩] h (ix2 n k)
    2 (by show 2 < 3; omega) ⟨2, ![a, 1]⟩ C rfl rfl 4 rfl (ix2 n (0 : Fin 1))
    (fun b hb => by
      match b with
      | ⟨0, _⟩ => rfl
      | ⟨1, _⟩ => exact absurd rfl hb)
    (by show 4 + 0 = k.val; omega)

end Concat

/-! The product of the two five-column matrices, rows against rows -/

theorem lhs_aug_0 (i : S2048x1024.Idx) (q : dot_S2048x5_S1024x5_S2048x1024_1_1_0_0_n_n.contr.Idx) :
    (dot_S2048x5_S1024x5_S2048x1024_1_1_0_0_n_n.lhsIdx i q 0).val = (i 0).val := by
  unfold DotDims.lhsIdx
  rw [dif_neg (show ¬(0 : Fin S2048x5.rank) ∈ dot_S2048x5_S1024x5_S2048x1024_1_1_0_0_n_n.lhsBatch by decide), dif_pos (show (0 : Fin S2048x5.rank) ∈ dot_S2048x5_S1024x5_S2048x1024_1_1_0_0_n_n.lhsNonContracting by decide)]
  rfl
theorem lhs_aug_1 (i : S2048x1024.Idx) (q : dot_S2048x5_S1024x5_S2048x1024_1_1_0_0_n_n.contr.Idx) :
    (dot_S2048x5_S1024x5_S2048x1024_1_1_0_0_n_n.lhsIdx i q 1).val = (q ⟨0, by decide⟩).val :=
  dot_S2048x5_S1024x5_S2048x1024_1_1_0_0_n_n.lhsIdx_val_of_single rfl i q
theorem rhs_aug_0 (i : S2048x1024.Idx) (q : dot_S2048x5_S1024x5_S2048x1024_1_1_0_0_n_n.contr.Idx) :
    (dot_S2048x5_S1024x5_S2048x1024_1_1_0_0_n_n.rhsIdx i q 0).val = (i 1).val := by
  unfold DotDims.rhsIdx
  rw [dif_neg (show ¬(0 : Fin S1024x5.rank) ∈ dot_S2048x5_S1024x5_S2048x1024_1_1_0_0_n_n.rhsBatch by decide), dif_pos (show (0 : Fin S1024x5.rank) ∈ dot_S2048x5_S1024x5_S2048x1024_1_1_0_0_n_n.rhsNonContracting by decide)]
  rfl
theorem rhs_aug_1 (i : S2048x1024.Idx) (q : dot_S2048x5_S1024x5_S2048x1024_1_1_0_0_n_n.contr.Idx) :
    (dot_S2048x5_S1024x5_S2048x1024_1_1_0_0_n_n.rhsIdx i q 1).val = (q ⟨0, by decide⟩).val :=
  dot_S2048x5_S1024x5_S2048x1024_1_1_0_0_n_n.rhsIdx_val_of_single rfl i q

/-- Entry (n, j) of the product into zero is the sum over the five columns of row n of the first matrix times row j of
    the second. -/
theorem matmul_aug_apply (xa : FVec Ideal S2048x5 .bf16) (ya : FVec Ideal S1024x5 .bf16) (n : Fin 2048) (j : Fin 1024) :
    matmul dot_S2048x5_S1024x5_S2048x1024_1_1_0_0_n_n none xa ya (constant S2048x1024 .f32 0x00000000#32) (ix2 n j)
      = ∑ k : Fin 5, xa (ix2 n k) * ya (ix2 j k) := by
  simp only [matmul]
  rw [Ideal.matmul_constant_zero_apply, ← Equiv.sum_comp (ValueIdx.contrEquiv1 dot_S2048x5_S1024x5_S2048x1024_1_1_0_0_n_n 5 rfl rfl).symm]
  refine Finset.sum_congr rfl fun k _ => ?_
  have hk := ValueIdx.contrEquiv1_symm_val dot_S2048x5_S1024x5_S2048x1024_1_1_0_0_n_n 5 rfl rfl k
  have el : dot_S2048x5_S1024x5_S2048x1024_1_1_0_0_n_n.lhsIdx (ix2 n j) ((ValueIdx.contrEquiv1 dot_S2048x5_S1024x5_S2048x1024_1_1_0_0_n_n 5 rfl rfl).symm k) = ix2 n k := funext fun a => Fin.ext (by
    match a with
    | ⟨0, _⟩ => exact lhs_aug_0 _ _
    | ⟨1, _⟩ => exact (lhs_aug_1 _ _).trans hk)
  have er : dot_S2048x5_S1024x5_S2048x1024_1_1_0_0_n_n.rhsIdx (ix2 n j) ((ValueIdx.contrEquiv1 dot_S2048x5_S1024x5_S2048x1024_1_1_0_0_n_n 5 rfl rfl).symm k) = ix2 j k := funext fun a => Fin.ext (by
    match a with
    | ⟨0, _⟩ => exact rhs_aug_0 _ _
    | ⟨1, _⟩ => exact (rhs_aug_1 _ _).trans hk)
  rw [el, er]

/-! The two augmented matrices -/

/-- The first block's rows augmented to five columns: the point, a one, its squared norm. -/
def augX (v : FVec Ideal S2048x3 .f32) : FVec Ideal S2048x5 .f32 :=
  concatenate S2048x5 1
    [⟨S2048x3, v⟩, ⟨S2048x1, broadcast S2048x1 (Scalar.ofBits (F := Ideal) .f32 0x3F800000#32)⟩,
     ⟨S2048x1, shapeCast S2048x1 (multiReduction .add [1] S2048 (mulf v v) 0x00000000#32 reduces_S2048x3_S2048 (.inl rfl) rfl)
        shapeCasts_S2048_S2048x1⟩]
    concatenates_S2048x3_S2048x1_S2048x1_S2048x5_d1

/-- The second block's rows augmented to five columns: minus twice the point, its squared norm, a one. -/
def augY (w : FVec Ideal S1024x3 .f32) : FVec Ideal S1024x5 .f32 :=
  concatenate S1024x5 1
    [⟨S1024x3, mulf (broadcast S1024x3 (Scalar.ofBits (F := Ideal) .f32 0xC0000000#32)) w⟩,
     ⟨S1024x1, shapeCast S1024x1 (multiReduction .add [1] S1024 (mulf w w) 0x00000000#32 reduces_S1024x3_S1024 (.inl rfl) rfl)
        shapeCasts_S1024_S1024x1⟩,
     ⟨S1024x1, broadcast S1024x1 (Scalar.ofBits (F := Ideal) .f32 0x3F800000#32)⟩]
    concatenates_S1024x3_S1024x1_S1024x1_S1024x5_d1

/-- The tile is the clamped product of the two augmented matrices. -/
theorem pay7_eq (x0 : FVec Ideal S1x2048x3 .f32) (x1 : FVec Ideal S1x1024x3 .f32) :
    k0_pay7 (F := Ideal) x0 x1
      = maximumf
          (matmul dot_S2048x5_S1024x5_S2048x1024_1_1_0_0_n_n none
            (truncf .bf16 (augX (shapeCast S2048x3 x0 shapeCasts_S1x2048x3_S2048x3)) bitsLt_bf16_f32)
            (truncf .bf16 (augY (shapeCast S1024x3 x1 shapeCasts_S1x1024x3_S1024x3)) bitsLt_bf16_f32)
            (constant S2048x1024 .f32 0x00000000#32))
          (broadcast S2048x1024 (Scalar.ofBits (F := Ideal) .f32 0x00000000#32)) := rfl

theorem augX_pt (v : FVec Ideal S2048x3 .f32) (n : Fin 2048) (k : Fin 5) (d : Fin 3) (hd : d.val = k.val) :
    augX v (ix2 n k) = v (ix2 n d) :=
  cat311_left _ _ _ _ n k d hd

theorem augX_one (v : FVec Ideal S2048x3 .f32) (n : Fin 2048) (k : Fin 5) (hk : k.val = 3) :
    augX v (ix2 n k) = 1 :=
  (cat311_mid _ _ _ _ n k hk).trans Cert.Chamfer.Consts.w_one

theorem augX_nrm (v : FVec Ideal S2048x3 .f32) (n : Fin 2048) (k : Fin 5) (hk : k.val = 4) :
    augX v (ix2 n k) = ∑ d : Fin 3, v (ix2 n d) * v (ix2 n d) :=
  (cat311_right _ _ _ _ n k hk).trans
    ((shapeCast_a_a1_apply _ shapeCasts_S2048_S2048x1 n 0).trans (sqsum_apply v reduces_S2048x3_S2048 (.inl rfl) rfl n))

theorem augY_pt (w : FVec Ideal S1024x3 .f32) (j : Fin 1024) (k : Fin 5) (d : Fin 3) (hd : d.val = k.val) :
    augY w (ix2 j k) = ((-2 : ℝ) : EReal) * w (ix2 j d) :=
  (cat311_left _ _ _ _ j k d hd).trans (congrArg (· * w (ix2 j d)) Cert.Chamfer.Consts.w_negTwo)

theorem augY_nrm (w : FVec Ideal S1024x3 .f32) (j : Fin 1024) (k : Fin 5) (hk : k.val = 3) :
    augY w (ix2 j k) = ∑ d : Fin 3, w (ix2 j d) * w (ix2 j d) :=
  (cat311_mid _ _ _ _ j k hk).trans
    ((shapeCast_a_a1_apply _ shapeCasts_S1024_S1024x1 j 0).trans (sqsum_apply w reduces_S1024x3_S1024 (.inl rfl) rfl j))

theorem augY_one (w : FVec Ideal S1024x3 .f32) (j : Fin 1024) (k : Fin 5) (hk : k.val = 4) :
    augY w (ix2 j k) = 1 :=
  (cat311_right _ _ _ _ j k hk).trans Cert.Chamfer.Consts.w_one

end Dist

open Dist in
/-- Entry (n, j) of the tile the body forms from its two input blocks is the kernel-form distance between row
    n of the first block and row j of the second. -/
theorem pay7_apply (x0 : FVec Ideal S1x2048x3 .f32) (x1 : FVec Ideal S1x1024x3 .f32) (n : Fin 2048) (j : Fin 1024) :
    k0_pay7 (F := Ideal) x0 x1 (ix2 n j)
      = dK (fun d => x0 (ix3 (0 : Fin 1) n d)) (fun d => x1 (ix3 (0 : Fin 1) j d)) := by
  have hv : ∀ d : Fin 3, shapeCast S2048x3 x0 shapeCasts_S1x2048x3_S2048x3 (ix2 n d) = x0 (ix3 (0 : Fin 1) n d) :=
    fun d => shapeCast_1ab_ab_apply x0 _ n d
  have hw : ∀ d : Fin 3, shapeCast S1024x3 x1 shapeCasts_S1x1024x3_S1024x3 (ix2 j d) = x1 (ix3 (0 : Fin 1) j d) :=
    fun d => shapeCast_1ab_ab_apply x1 _ j d
  rw [pay7_eq]
  refine (maximumf_apply _ _ _).trans ?_
  refine (congrArg₂ max (matmul_aug_apply _ _ n j) Cert.Chamfer.Consts.w_zero).trans ?_
  rw [Fin.sum_univ_five]
  simp only [truncf_apply]
  rw [augX_pt _ n 0 0 rfl, augX_pt _ n 1 1 rfl, augX_pt _ n 2 2 rfl, augX_one _ n 3 rfl, augX_nrm _ n 4 rfl,
    augY_pt _ j 0 0 rfl, augY_pt _ j 1 1 rfl, augY_pt _ j 2 2 rfl, augY_nrm _ j 3 rfl, augY_one _ j 4 rfl]
  simp only [hv, hw]
  rfl

end Cert.KernelIdeal.Payloads

end
-- ==== Proof.KernelChain.lean ====
/-
  The kernel's carried state, point by point, is the specification's chain.

  At grid point `t` the body sees the first cloud of batch entry `t / 2` and tile `t % 2` of its second cloud, so
  the tile it forms is that part of the entry's distance matrix (kernel form). What the body leaves in the output
  block and in the carried row minima is, case by case, one step of the chain; by induction on the point the
  pair the frame run tracks IS the chain at every point.
-/
import proofs.«145622_j20203526161089_1_alg».proof.Proof.KernelBlocks
import proofs.«145622_j20203526161089_1_alg».proof.Proof.KernelPieces
import proofs.«145622_j20203526161089_1_alg».proof.Proof.KernelPayloads
import proofs.«145622_j20203526161089_1_alg».proof.Proof.KernelDist

set_option maxRecDepth 16384

noncomputable section

namespace Cert.KernelIdeal.ChamferValue

open Idealize.ShloMosaic Idealize.ShloMosaic.TcCoe Idealize.SL.Sem Idealize.ShloMosaic.ValueIdx
open Cert.KernelIdeal Cert.KernelIdeal.Gen Cert.Chamfer

variable (m : (ℓ : Loc nD τ sig) → Buf (Elt Ideal) ℓ)

/-- The two argument arrays of core `c`, as batches of clouds. -/
abbrev argX (c : Dev nD) : Batch := m ((c : Thread nD τ).loc main_arg0)
abbrev argY (c : Dev nD) : Batch := m ((c : Thread nD τ).loc main_arg1)

/-- Their distance matrices, in the kernel's form. -/
abbrev DK (c : Dev nD) : Fin 32 → Mat := distK (argX m c) (argY m c)

/-- The two input blocks at a point, at their literal types. -/
abbrev xblk (c : Dev nD) (t : Fin cfg0.N) : Vec Ideal S1x2048x3 .f32 := iblk m c 0 t
abbrev yblk (c : Dev nD) (t : Fin cfg0.N) : Vec Ideal S1x1024x3 .f32 := iblk m c 1 t

/-- The total an output block holds, and the row minima a scratch column holds. -/
def tot (v : Vec Ideal S1x1 .f32) : EReal := v (ix2 (0 : Fin 1) (0 : Fin 1))
def mins (v : Vec Ideal S2048x1 .f32) : Fin 2048 → EReal := fun n => v (ix2 n (0 : Fin 1))

/-- Entry (n, j) of the tile formed at point `t` is entry (n, column j of tile t % 2) of batch entry t / 2's
    distance matrix. -/
theorem tile_apply (c : Dev nD) (t : Fin cfg0.N) (n : Fin 2048) (j : Fin 1024) :
    k0_pay7 (F := Ideal) (xblk m c t) (yblk m c t) (ix2 n j) = DK m c (entry t) n (col (tile t) j) := by
  refine (Payloads.pay7_apply (xblk m c t) (yblk m c t) n j).trans ?_
  show dK _ _ = dK (row (argX m c) (entry t) n) (row (argY m c) (entry t) (col (tile t) j))
  congr 1
  · funext d; exact iblk0_apply m c t n d
  · funext d; exact iblk1_apply m c t j d

/-- The tile's column minima, summed, are the specification's tile column sum. -/
theorem colsum_eq (c : Dev nD) (t : Fin cfg0.N) :
    ∑ j : Fin 1024, k0_pay9 (F := Ideal) (xblk m c t) (yblk m c t) (ix2 (0 : Fin 1) j)
      = tileColSum (DK m c (entry t)) (tile t) := by
  unfold tileColSum
  refine Finset.sum_congr rfl fun j _ => ?_
  refine (Payloads.pay9_apply (xblk m c t) (yblk m c t) j).trans ?_
  congr 1
  funext n
  exact tile_apply m c t n j

/-- The tile's row minima are the specification's. -/
theorem rowmin_eq (c : Dev nD) (t : Fin cfg0.N) (n : Fin 2048) :
    k0_pay8 (F := Ideal) (xblk m c t) (yblk m c t) (ix2 n (0 : Fin 1))
      = tileRowMin (DK m c (entry t)) (tile t) n := by
  unfold tileRowMin
  refine (Payloads.pay8_apply (xblk m c t) (yblk m c t) n).trans ?_
  congr 1
  funext j
  exact tile_apply m c t n j

/-- After a tile's column minima join a total `xo`. -/
theorem tot_pay2 (c : Dev nD) (t : Fin cfg0.N) (xo : Vec Ideal S1x1 .f32) :
    tot (k0_pay2 (F := Ideal) (k0_pay9 (F := Ideal) (xblk m c t) (yblk m c t)) xo)
      = tot xo + tileColSum (DK m c (entry t)) (tile t) := by
  unfold tot
  refine (Payloads.pay2_apply _ xo).trans ?_
  rw [colsum_eq]

/-- The row minima after a tile, against what was carried. -/
theorem mins_pay1 (c : Dev nD) (t : Fin cfg0.N) (xs : Vec Ideal S2048x1 .f32) :
    mins (k0_pay1 (F := Ideal) (k0_pay8 (F := Ideal) (xblk m c t) (yblk m c t)) xs)
      = fun n => min (mins xs n) (tileRowMin (DK m c (entry t)) (tile t) n) := by
  funext n
  unfold mins
  refine (Payloads.pay1_apply _ xs n).trans ?_
  rw [rowmin_eq]

/-- The reset values: zero for the total, plus infinity for every row minimum. -/
theorem tot_pay5 : tot (k0_pay5 (F := Ideal)) = 0 := Payloads.pay5_apply _
theorem mins_pay6 (n : Fin 2048) : mins (k0_pay6 (F := Ideal)) n = ⊤ := Payloads.pay6_apply _

/-- After the completed row minima `v52` join a total `v55`; and the last point's scaling. -/
theorem tot_pay3 (v52 : Vec Ideal S2048x1 .f32) (v55 : Vec Ideal S1x1 .f32) :
    tot (k0_pay3 (F := Ideal) v52 v55) = tot v55 + ∑ n : Fin 2048, mins v52 n := Payloads.pay3_apply v52 v55
theorem tot_pay4 (v : Vec Ideal S1x1 .f32) :
    tot (k0_pay4 (F := Ideal) v) = tot v * ((1 / 32 : ℝ) : EReal) := Payloads.pay4_apply v

/-- A first tile (an even point), from the total `xo`: one `stepFirst` of the specification. -/
theorem first_step (c : Dev nD) (t : Fin cfg0.N) (ht : t.val % 2 = 0) (xo : Vec Ideal S1x1 .f32) :
    ((tot (k0_pay2 (F := Ideal) (k0_pay9 (F := Ideal) (xblk m c t) (yblk m c t)) xo),
      mins (k0_pay1 (F := Ideal) (k0_pay8 (F := Ideal) (xblk m c t) (yblk m c t)) (k0_pay6 (F := Ideal)))) : State)
      = stepFirst (DK m c (entry t)) (tot xo) := by
  have h0 : tile t = 0 := Fin.ext ht
  unfold stepFirst
  rw [tot_pay2, mins_pay1, h0]
  simp only [mins_pay6]

/-- A second tile (an odd point), from the total `xo` and the row minima `xs`: one `stepSecond`. -/
theorem second_step (c : Dev nD) (t : Fin cfg0.N) (ht : t.val % 2 = 1) (xo : Vec Ideal S1x1 .f32)
    (xs : Vec Ideal S2048x1 .f32) :
    ((tot (k0_pay3 (F := Ideal) (k0_pay1 (F := Ideal) (k0_pay8 (F := Ideal) (xblk m c t) (yblk m c t)) xs)
          (k0_pay2 (F := Ideal) (k0_pay9 (F := Ideal) (xblk m c t) (yblk m c t)) xo)),
      mins (k0_pay1 (F := Ideal) (k0_pay8 (F := Ideal) (xblk m c t) (yblk m c t)) xs)) : State)
      = stepSecond (DK m c (entry t)) (tot xo, mins xs) := by
  have h1 : tile t = 1 := Fin.ext ht
  unfold stepSecond
  rw [tot_pay3, tot_pay2, mins_pay1, h1]

/-- Scaling the first component of a state that is known as a pair. -/
theorem scale_fst (k a : EReal) (r : Fin 2048 → EReal) (S : State) (h : ((a, r) : State) = S) :
    ((a * k, r) : State) = (S.1 * k, S.2) := by
  subst h; rfl

/-- The pair the frame run tracks, read as the specification's state. -/
def absSt (p : Vec Ideal S1x1 .f32 × Vec Ideal S2048x1 .f32) : State := (tot p.1, mins p.2)

/-- THE INVARIANT: after every grid point the tracked pair is the chain, by induction on the point. -/
theorem outsAt_eq (c : Dev nD) : ∀ (t : ℕ) (h : t < cfg0.N),
    absSt (outsAt0 m c t h) = chain (DK m c) t (lt_of_lt_of_eq h N64)
  | 0, h => by
    rw [outsAt0_A m c ⟨0, h⟩ rfl rfl (by dsimp only; omega) (by dsimp only; omega)]
    unfold absSt
    dsimp only
    rw [Pieces.out_A, Pieces.sout_A]
    refine (first_step m c ⟨0, h⟩ rfl _).trans ?_
    have he : entry ⟨0, h⟩ = 0 := Fin.ext (Nat.zero_div 2)
    rw [tot_pay5, he, chain]
  | t + 1, h => by
    have hN : t + 1 < 64 := lt_of_lt_of_eq h N64
    have ih : ((tot (outsAt0 m c t (Nat.lt_of_succ_lt h)).1, mins (outsAt0 m c t (Nat.lt_of_succ_lt h)).2) : State)
        = chain (DK m c) t (Nat.lt_of_succ_lt hN) := outsAt_eq c t (Nat.lt_of_succ_lt h)
    have ih1 : tot (outsAt0 m c t (Nat.lt_of_succ_lt h)).1 = (chain (DK m c) t (Nat.lt_of_succ_lt hN)).1 :=
      congrArg Prod.fst ih
    by_cases hpar : (t + 1) % 2 = 0
    · -- a first tile of a later batch entry: the total goes on, the row minima start afresh
      rw [outsAt0_C m c ⟨t + 1, h⟩ (by dsimp only; omega) hpar (by dsimp only; omega) (by dsimp only; omega)]
      unfold absSt
      dsimp only
      rw [Pieces.out_C, Pieces.sout_C]
      refine (first_step m c ⟨t + 1, h⟩ hpar _).trans ?_
      show stepFirst (DK m c (entry ⟨t + 1, h⟩)) (tot (outsAt0 m c t (Nat.lt_of_succ_lt h)).1) = _
      rw [ih1, chain, if_pos hpar]
      rfl
    · have hodd : (t + 1) % 2 = 1 := by omega
      have hs := second_step m c ⟨t + 1, h⟩ hodd (outsAt0 m c t (Nat.lt_of_succ_lt h)).1
        (outsAt0 m c t (Nat.lt_of_succ_lt h)).2
      rw [ih] at hs
      by_cases hl : t + 1 = 63
      · -- the last point: a second tile, then the total is scaled
        rw [outsAt0_D m c ⟨t + 1, h⟩ (by dsimp only; omega) (by dsimp only; omega) (by dsimp only; omega)
          (by dsimp only; omega)]
        unfold absSt
        dsimp only
        rw [Pieces.out_D, Pieces.sout_D, tot_pay4, chain, if_neg hpar, if_pos hl]
        exact scale_fst _ _ _ _ hs
      · -- a second tile: the row minima are completed and summed into the total
        rw [outsAt0_B m c ⟨t + 1, h⟩ (by dsimp only; omega) (by dsimp only; omega) (by dsimp only; omega)
          (by dsimp only; omega)]
        unfold absSt
        dsimp only
        rw [Pieces.out_B, Pieces.sout_B, chain, if_neg hpar, if_neg hl]
        exact hs

end Cert.KernelIdeal.ChamferValue

end
-- ==== Proof.KernelRun.lean ====
/-
  The kernel's run, read as a value: the program's result is the chain's total after the last grid point.

  The output window's block never moves and is written back once, after the last point; its block is the whole
  one-element array, so the array ends holding what the last point left. The program then reshapes that array to a
  scalar, which is the result.
-/
import proofs.«145622_j20203526161089_1_alg».proof.Proof.KernelChain
import Idealize.ShloMosaic.Lib.Pipeline.Value
import Idealize.ShloMosaic.Lib.StableHlo.Run
import Idealize.ShloMosaic.Lib.Tactic

set_option maxRecDepth 16384

noncomputable section

namespace Cert.KernelIdeal.ChamferValue

open Idealize.ShloMosaic Idealize.ShloMosaic.TcCoe Idealize.SL.Sem Idealize.ShloMosaic.ValueIdx
open Idealize.ShloMosaic.Pipeline (Dat)
open Cert.KernelIdeal Cert.KernelIdeal.Gen Cert.Chamfer

variable (m : (ℓ : Loc nD τ sig) → Buf (Elt Ideal) ℓ) (ρ : Dev nD → PrngReg)

/-- The last grid point. -/
def tLast : Fin cfg0.N := ⟨63, lt_of_lt_of_eq (by decide : 63 < 64) N64.symm⟩

/-- What the result array holds after the run: the output block the last point left. -/
abbrev lastBlock (c : Dev nD) : Buf (Elt Ideal) ((c : Thread nD τ).loc main_v0) := (outsAt0 m c 63 tLast.isLt).1

/-- The one index of a one-by-one block. -/
theorem idx11 (a : S1x1.Idx) : a = ix2 (0 : Fin 1) (0 : Fin 1) := by
  have h0 : (a 0).val < 1 := idx2_lt0 a
  have h1 : (a 1).val < 1 := idx2_lt1 a
  refine (eq_ix2 a).trans ?_
  congr 1 <;> apply Fin.ext <;> simp only [Fin.val_zero] <;> omega

/-- The chain's last total, as core `c`'s arguments give it. -/
abbrev total (c : Dev nD) : EReal := (chain (DK m c) 63 (by decide)).1

/-- The only write-back is at the last point. -/
theorem flush_last : (cfg0.win 2).flush tLast = true := (flush0_2 tLast).mpr rfl

theorem eq_last_of_flush (t : Fin cfg0.N) (hf : (cfg0.win 2).flush t = true) : t = tLast := by
  have h := (flush0_2 t).mp hf
  have hN : t.val < 64 := lt_of_lt_of_eq t.isLt N64
  exact Fin.ext (show t.val = 63 by omega)

/-- The result array's one element after the run is the chain's last total: the single write-back writes the
    block the last point left, and that block covers the array. -/
theorem final_tot (c : Dev nD) : tot ((dats m 0 c).arrAt 2 cfg0.N) = total m c := by
  refine (dats m 0 c).arrAt_forall_of_cover 2 (fun _ v => v = total m c) ?_ ?_ (ix2 (0 : Fin 1) (0 : Fin 1))
  · intro t hf y
    obtain rfl := eq_last_of_flush t hf
    show (dats m 0 c).after 2 tLast y = total m c
    rw [after0_2, idx11 y]
    exact congrArg Prod.fst (outsAt_eq m c 63 tLast.isLt)
  · intro i
    refine ⟨tLast, flush_last, ?_⟩
    show i ∈ ((View.whole main_v0).slice (win0_2.rect tLast)).set
    rw [View.set_slice_whole, Rect.mem_set_unit]
    intro a
    have hidx : ∀ a : Fin 2, win0_2.index tLast a * win0_2.size a = 0 ∧ win0_2.xsize (grid0.coords tLast) a = 1 := by
      decide +kernel
    have h0 : ((i : S1x1.Idx) 0).val < 1 := idx2_lt0 (i : S1x1.Idx)
    have h1 : ((i : S1x1.Idx) 1).val < 1 := idx2_lt1 (i : S1x1.Idx)
    match a with
    | ⟨0, _⟩ =>
      show win0_2.index tLast 0 * win0_2.size 0 ≤ ((i : S1x1.Idx) 0).val
        ∧ ((i : S1x1.Idx) 0).val < win0_2.index tLast 0 * win0_2.size 0 + win0_2.xsize (grid0.coords tLast) 0
      rw [(hidx 0).1, (hidx 0).2]; omega
    | ⟨1, _⟩ =>
      show win0_2.index tLast 1 * win0_2.size 1 ≤ ((i : S1x1.Idx) 1).val
        ∧ ((i : S1x1.Idx) 1).val < win0_2.index tLast 1 * win0_2.size 1 + win0_2.xsize (grid0.coords tLast) 1
      rw [(hidx 1).1, (hidx 1).2]; omega

/-- The tail's result: the reshape of the result array to a scalar. -/
theorem tail_eq (c : Dev nD) :
    Pipeline.afterTail₀ cfgs (dats m) 0 (V0 m) [hostOps1] c main_v1 = fun _ => total m c := by
  unfold Pipeline.afterTail₀
  show StableHlo.after hostOps1 _ (Proc.devRef .tc main_v1) = _
  after_results
  funext i
  have hw := Pipeline.withArrays_arr spec0 launch0.win.arr_inj c (V0 m c) (fun w => (dats m 0 c).arrAt w cfg0.N) 2
  show shapeCast S_ (Pipeline.withArrays spec0 c (V0 m c) (fun w => (dats m 0 c).arrAt w cfg0.N)
    (Proc.devRef .tc (Pipeline.arrRef spec0 2))) shapeCasts_S1x1_S_ i = _
  rw [hw]
  refine Eq.trans ?_ (final_tot m c)
  unfold tot shapeCast
  exact congrArg _ (idx11 _)

/-- THE RUN, READ: every weakly fair execution of the idealized kernel's program ends with its result at the chain's
    last total and both arguments unchanged. The result buffer is none of the pipeline's arrays, so the frame run's
    post gives it as the tail's value; the arguments are arrays of input windows, which keep their entry contents. -/
theorem run : θ_run defs (onTc (τ := τ) (main (F := Ideal))) ⟨m, fun _ => 0, ρ⟩ fun r => ∀ c : Dev nD,
      r.2.mem ((c.tc : Thread nD τ).loc main_v1) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (by decide)).trans (tail_eq m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.ChamferValue

end
-- ==== Proof.RefValue.lean ====
/-
  The reference's result, read off its run one operation at a time, is the specification's total over the
  reference-form distance matrices of its two arguments.
-/
import proofs.«145622_j20203526161089_1_alg».proof.Proof.Gen.ReferenceIdeal.Read
import proofs.«145622_j20203526161089_1_alg».proof.Proof.Spec
import proofs.«145622_j20203526161089_1_alg».proof.Proof.Consts
import Idealize.ShloMosaic.PureOps.Reduce

noncomputable section

namespace Cert.Chamfer.RefValue

open Idealize.ShloMosaic Cert.Chamfer

open Cert.ReferenceIdeal.Read in
/-- The clamped distance array at (b, n, m) is the reference-form distance between point n of the first cloud
    and point m of the second. -/
theorem v14_apply (x0 x1 : FVec Ideal Cert.ReferenceIdeal.S32x2048x3 .f32) (b : Fin 32) (n m : Fin 2048) :
    val_main_v14 (F := Ideal) x0 x1 (ValueIdx.ix3 b n m) = distR x0 x1 b n m := by
  have e1 : ∀ k : Fin 3, idx_main_v1 (idx_main_v5 (idx_main_v7 (ValueIdx.ix3 b n m))) k = ValueIdx.ix3 b n k :=
    fun k => funext fun a => Fin.ext (by match a with | ⟨0, _⟩ => rfl | ⟨1, _⟩ => rfl | ⟨2, _⟩ => rfl)
  have e2 : ∀ k : Fin 3, idx_main_v3 (idx_main_v6 (idx_main_v8 (ValueIdx.ix3 b n m))) k = ValueIdx.ix3 b m k :=
    fun k => funext fun a => Fin.ext (by match a with | ⟨0, _⟩ => rfl | ⟨1, _⟩ => rfl | ⟨2, _⟩ => rfl)
  have e3 : ∀ k : Fin 3, lidx_main_v4 (ValueIdx.ix3 b n m) k = ValueIdx.ix3 b n k :=
    fun k => funext fun a => Fin.ext (by match a with | ⟨0, _⟩ => rfl | ⟨1, _⟩ => rfl | ⟨2, _⟩ => rfl)
  have e4 : ∀ k : Fin 3, ridx_main_v4 (ValueIdx.ix3 b n m) k = ValueIdx.ix3 b m k :=
    fun k => funext fun a => Fin.ext (by match a with | ⟨0, _⟩ => rfl | ⟨1, _⟩ => rfl | ⟨2, _⟩ => rfl)
  rw [val_main_v14_apply, val_main_v12_apply, val_main_v13_apply, val_main_cst_2_apply, val_main_v9_apply,
    val_main_v11_apply, val_main_v7_apply, val_main_v8_apply, val_main_v10_apply, val_main_cst_1_apply,
    val_main_v4_apply, val_main_v5_apply, val_main_v6_apply, val_main_v1_apply, val_main_v3_apply,
    val_main_cst_apply, val_main_cst_0_apply]
  simp only [val_main_v0_apply, val_main_v2_apply, e1, e2, e3, e4, Ideal.mulf_def, Ideal.addf_def, Ideal.subf_def,
    Ideal.maximumf_def, Ideal.ofBits_def, Consts.w_zero, Consts.w_two]
  rfl

open Cert.ReferenceIdeal in
/-- The reduced index (b, i) with coordinate k put back on the middle axis is (b, k, i). -/
theorem lift_mid (h : S32x2048x2048.Reduces [(1 : Fin S32x2048x2048.rank)] S32x2048) (b : Fin 32) (i : Fin 2048)
    (k : Fin (S32x2048x2048.size 1)) :
    h.lift (ValueIdx.ix2 b i) k = ValueIdx.ix3 b (⟨k.val, k.isLt⟩ : Fin 2048) i := by
  funext c; apply Fin.ext
  fin_cases c <;> rfl

open Cert.ReferenceIdeal in
/-- The reduced index (b, i) with coordinate k put back on the last axis is (b, i, k). -/
theorem lift_last (h : S32x2048x2048.Reduces [(2 : Fin S32x2048x2048.rank)] S32x2048) (b : Fin 32) (i : Fin 2048)
    (k : Fin (S32x2048x2048.size 2)) :
    h.lift (ValueIdx.ix2 b i) k = ValueIdx.ix3 b i (⟨k.val, k.isLt⟩ : Fin 2048) := by
  funext c; apply Fin.ext
  fin_cases c <;> rfl

open Cert.ReferenceIdeal Cert.ReferenceIdeal.Gen in
/-- A minimum-reduce over the middle axis from plus infinity, at (b, i), is the least of the entries (b, n, i). -/
theorem reduce_min_mid (y : FVec Ideal S32x2048x2048 .f32) (init : FVec Ideal S_ .f32) (hinit : ∀ j, init j = ⊤)
    (b : Fin 32) (i : Fin 2048) :
    Host.reduce FloatOps.minimumf y init reducesTo_S32x2048x2048_S32x2048_d1 h_S_ (ValueIdx.ix2 b i)
      = (Finset.univ : Finset (Fin 2048)).fold min ⊤ (fun n => y (ValueIdx.ix3 b n i)) := by
  have h : S32x2048x2048.Reduces [(1 : Fin S32x2048x2048.rank)] S32x2048 := by decide
  rw [Host.reduce_eq_fold_single FloatOps.minimumf y init reducesTo_S32x2048x2048_S32x2048_d1 h h_S_, hinit]
  have hf : (y ∘ h.lift (ValueIdx.ix2 b i)) = fun n : Fin 2048 => y (ValueIdx.ix3 b n i) :=
    funext fun k => congrArg y (lift_mid h b i k)
  exact congrArg (fun f => Finset.fold min ⊤ f (Finset.univ : Finset (Fin 2048))) hf

open Cert.ReferenceIdeal Cert.ReferenceIdeal.Gen in
/-- A minimum-reduce over the last axis from plus infinity, at (b, i), is the least of the entries (b, i, m). -/
theorem reduce_min_last (y : FVec Ideal S32x2048x2048 .f32) (init : FVec Ideal S_ .f32) (hinit : ∀ j, init j = ⊤)
    (b : Fin 32) (i : Fin 2048) :
    Host.reduce FloatOps.minimumf y init reducesTo_S32x2048x2048_S32x2048_d2 h_S_ (ValueIdx.ix2 b i)
      = (Finset.univ : Finset (Fin 2048)).fold min ⊤ (fun m => y (ValueIdx.ix3 b i m)) := by
  have h : S32x2048x2048.Reduces [(2 : Fin S32x2048x2048.rank)] S32x2048 := by decide
  rw [Host.reduce_eq_fold_single FloatOps.minimumf y init reducesTo_S32x2048x2048_S32x2048_d2 h h_S_, hinit]
  have hf : (y ∘ h.lift (ValueIdx.ix2 b i)) = fun m : Fin 2048 => y (ValueIdx.ix3 b i m) :=
    funext fun k => congrArg y (lift_last h b i k)
  exact congrArg (fun f => Finset.fold min ⊤ f (Finset.univ : Finset (Fin 2048))) hf

/-- The plus-infinity word at any index of the scalar shape. -/
theorem cst3_top (j : Cert.ReferenceIdeal.S_.Idx) : Cert.ReferenceIdeal.Read.val_main_cst_3 (F := Ideal) j = ⊤ := by
  rw [Cert.ReferenceIdeal.Read.val_main_cst_3_apply, Ideal.ofBits_def, Consts.w_top]

/-- The same word, as the second minimum's initial value. -/
theorem cst4_top (j : Cert.ReferenceIdeal.S_.Idx) : Cert.ReferenceIdeal.Read.val_main_cst_4 (F := Ideal) j = ⊤ := by
  rw [Cert.ReferenceIdeal.Read.val_main_cst_4_apply, Ideal.ofBits_def, Consts.w_top]

open Cert.ReferenceIdeal.Read in
/-- The minimum over the first cloud, at (b, i): the least entry of column i of entry b's distance matrix. -/
theorem v15_apply (x0 x1 : FVec Ideal Cert.ReferenceIdeal.S32x2048x3 .f32) (b : Fin 32) (i : Fin 2048) :
    val_main_v15 (F := Ideal) x0 x1 (ValueIdx.ix2 b i) = colMin (distR x0 x1 b) i := by
  unfold val_main_v15
  rw [reduce_min_mid _ _ cst3_top b i]
  unfold colMin
  exact congrArg (fun f => Finset.fold min ⊤ f (Finset.univ : Finset (Fin 2048))) (funext fun n => v14_apply x0 x1 b n i)

open Cert.ReferenceIdeal.Read in
/-- The minimum over the second cloud, at (b, i): the least entry of row i of entry b's distance matrix. -/
theorem v16_apply (x0 x1 : FVec Ideal Cert.ReferenceIdeal.S32x2048x3 .f32) (b : Fin 32) (i : Fin 2048) :
    val_main_v16 (F := Ideal) x0 x1 (ValueIdx.ix2 b i) = rowMin (distR x0 x1 b) i := by
  unfold val_main_v16
  rw [reduce_min_last _ _ cst4_top b i]
  unfold rowMin
  exact congrArg (fun f => Finset.fold min ⊤ f (Finset.univ : Finset (Fin 2048))) (funext fun m => v14_apply x0 x1 b i m)

open Cert.ReferenceIdeal.Read in
/-- The reference's last stage at its one index. -/
theorem ref_eq (x0 x1 : FVec Ideal Cert.ReferenceIdeal.S32x2048x3 .f32) :
    Cert.ReferenceIdeal.Read.val_main_v19 (F := Ideal) x0 x1 ValueIdx.ix0 = refTotal (distR x0 x1) := by
  rw [val_main_v19_apply, val_main_v18_apply, val_main_cst_5_apply, val_main_cst_6_apply, Ideal.hostDivf_def,
    Ideal.ofBits_def, Ideal.ofBits_def, Consts.w_zero, Consts.w_thirtyTwo, ValueIdx.sum_idx2]
  unfold refTotal
  refine congrArg (fun s => Ideal.div (0 + s) ((32 : ℝ) : EReal)) ?_
  refine Finset.sum_congr rfl fun b _ => Finset.sum_congr rfl fun i _ => ?_
  rw [val_main_v17_apply, Ideal.addf_def, v15_apply, v16_apply]

end Cert.Chamfer.RefValue

end
-- ==== Proof.ChainAlgebra.lean ====
/-
  The total the kernel has accumulated after its last grid point is the reference's total.
-/
import proofs.«145622_j20203526161089_1_alg».proof.Proof.Spec

noncomputable section

namespace Cert.Chamfer

open Idealize.ShloMosaic

/-- Every column index lies in one of the two tiles: a property of all 2048 columns is a property of the
    1024 columns of each tile. -/
private theorem forall_col {p : Fin 2048 → Prop} :
    (∀ i, p i) ↔ (∀ j, p (col 0 j)) ∧ ∀ j, p (col 1 j) := by
  constructor
  · intro h
    exact ⟨fun j => h _, fun j => h _⟩
  · rintro ⟨h0, h1⟩ i
    by_cases hi : i.val < 1024
    · have e : col 0 ⟨i.val, hi⟩ = i := Fin.ext (by simp [col])
      have h := h0 ⟨i.val, hi⟩
      rw [e] at h
      exact h
    · have e : col 1 ⟨i.val - 1024, by omega⟩ = i := Fin.ext (by simp [col]; omega)
      have h := h1 ⟨i.val - 1024, by omega⟩
      rw [e] at h
      exact h

/-- A minimum over the 2048 columns is the minimum of the two tiles' minima: both sides have the same lower
    bounds. -/
private theorem fold_min_split (f : Fin 2048 → EReal) :
    (Finset.univ : Finset (Fin 2048)).fold min ⊤ f
      = min ((Finset.univ : Finset (Fin 1024)).fold min ⊤ (fun j => f (col 0 j)))
            ((Finset.univ : Finset (Fin 1024)).fold min ⊤ (fun j => f (col 1 j))) := by
  refine eq_of_forall_le_iff (fun c => ?_)
  rw [le_min_iff, Finset.le_fold_min, Finset.le_fold_min, Finset.le_fold_min]
  simp only [Finset.mem_univ, true_implies, le_top, true_and]
  exact forall_col (p := fun i => c ≤ f i)

/-- A sum over the 2048 columns is the sum of the two tiles' sums. -/
private theorem sum_split (g : Fin 2048 → EReal) :
    ∑ i : Fin 2048, g i = ∑ j : Fin 1024, g (col 0 j) + ∑ j : Fin 1024, g (col 1 j) := by
  have h := Fin.sum_univ_add (M := EReal) (a := 1024) (b := 1024) (fun i => g i)
  have e0 : ∀ j : Fin 1024, (Fin.castAdd 1024 j : Fin 2048) = col 0 j := fun j => Fin.ext (by simp [col])
  have e1 : ∀ j : Fin 1024, (Fin.natAdd 1024 j : Fin 2048) = col 1 j :=
    fun j => Fin.ext (by simp [col]; omega)
  simp only [e0, e1] at h
  exact h

/-- The least entry of a row is the lesser of its least entries within the two tiles. -/
private theorem rowMin_split (D : Mat) (n : Fin 2048) :
    min (tileRowMin D 0 n) (tileRowMin D 1 n) = rowMin D n :=
  (fold_min_split (fun m => D n m)).symm

/-- The two tiles' column sums add up to the sum of all the columns' least entries. -/
private theorem colSum_split (D : Mat) : tileColSum D 0 + tileColSum D 1 = ∑ i : Fin 2048, colMin D i :=
  (sum_split (fun i => colMin D i)).symm

/-- What one batch entry adds to the total: the sum of its columns' least entries and the sum of its rows'. -/
private def entrySum (D : Mat) : EReal := (∑ i : Fin 2048, colMin D i) + ∑ n : Fin 2048, rowMin D n

/-- Both tiles of one batch entry, from the total `o` so far, add that entry's two sums to the total. -/
private theorem stepSecond_stepFirst (D : Mat) (o : EReal) :
    (stepSecond D (stepFirst D o)).1 = o + entrySum D := by
  have hmin : ∀ n : Fin 2048, min (min ⊤ (tileRowMin D 0 n)) (tileRowMin D 1 n) = rowMin D n := by
    intro n
    rw [min_top_left]
    exact rowMin_split D n
  show ((o + tileColSum D 0) + tileColSum D 1)
      + ∑ n : Fin 2048, min (min ⊤ (tileRowMin D 0 n)) (tileRowMin D 1 n) = o + entrySum D
  rw [Finset.sum_congr rfl (fun n _ => hmin n), add_assoc o, colSum_split, add_assoc]
  rfl

/-- The total after the first `b` batch entries are complete. -/
private def pre (D : Fin 32 → Mat) (b : ℕ) : EReal :=
  ∑ k ∈ Finset.range b, if h : k < 32 then entrySum (D ⟨k, h⟩) else 0

private theorem pre_succ (D : Fin 32 → Mat) (b : ℕ) (hb : b < 32) :
    pre D (b + 1) = pre D b + entrySum (D ⟨b, hb⟩) := by
  unfold pre
  rw [Finset.sum_range_succ, dif_pos hb]

/-- The first grid point. -/
private theorem chain_zero (D : Fin 32 → Mat) (h : 0 < 64) : chain D 0 h = stepFirst (D 0) 0 := by
  rw [chain]

/-- An even grid point after the first is the first tile of its batch entry. -/
private theorem chain_even (D : Fin 32 → Mat) (t : ℕ) (h : t + 1 < 64) (he : (t + 1) % 2 = 0)
    (k : Fin 32) (hk : k.val = (t + 1) / 2) :
    chain D (t + 1) h = stepFirst (D k) (chain D t (Nat.lt_of_succ_lt h)).1 := by
  have hk' : (⟨(t + 1) / 2, by omega⟩ : Fin 32) = k := Fin.ext hk.symm
  rw [chain, if_pos he, hk']

/-- An odd grid point before the last is the second tile of its batch entry. -/
private theorem chain_odd (D : Fin 32 → Mat) (t : ℕ) (h : t + 1 < 64) (ho : ¬ (t + 1) % 2 = 0)
    (hl : ¬ t + 1 = 63) (k : Fin 32) (hk : k.val = (t + 1) / 2) :
    chain D (t + 1) h = stepSecond (D k) (chain D t (Nat.lt_of_succ_lt h)) := by
  have hk' : (⟨(t + 1) / 2, by omega⟩ : Fin 32) = k := Fin.ext hk.symm
  rw [chain, if_neg ho, if_neg hl, hk']

/-- The last grid point is the second tile of the last batch entry, with the total scaled by 1/32. -/
private theorem chain_final (D : Fin 32 → Mat) (t : ℕ) (h : t + 1 < 64) (ho : ¬ (t + 1) % 2 = 0)
    (hl : t + 1 = 63) (k : Fin 32) (hk : k.val = (t + 1) / 2) :
    (chain D (t + 1) h).1
      = (stepSecond (D k) (chain D t (Nat.lt_of_succ_lt h))).1 * ((1 / 32 : ℝ) : EReal) := by
  have hk' : (⟨(t + 1) / 2, by omega⟩ : Fin 32) = k := Fin.ext hk.symm
  rw [chain, if_neg ho, if_pos hl, hk']

/-- At the first tile of batch entry `b` the state is that tile's step from the total of the `b` complete
    entries before it. -/
private theorem chain_even_point (D : Fin 32 → Mat) :
    ∀ (b : ℕ) (hb : b < 32) (t : ℕ) (ht : t < 64), t = 2 * b →
      chain D t ht = stepFirst (D ⟨b, hb⟩) (pre D b) := by
  intro b
  induction b with
  | zero =>
    intro hb t ht e
    obtain rfl : t = 0 := by omega
    rw [chain_zero]
    unfold pre
    rw [Finset.sum_range_zero]
    rfl
  | succ b ih =>
    intro hb t ht e
    obtain rfl : t = 2 * b + 1 + 1 := by omega
    have hb' : b < 32 := by omega
    rw [chain_even D (2 * b + 1) ht (by omega) ⟨b + 1, hb⟩ (by show b + 1 = _; omega),
      chain_odd D (2 * b) (by omega) (by omega) (by omega) ⟨b, hb'⟩ (by show b = _; omega),
      ih hb' (2 * b) (by omega) rfl, stepSecond_stepFirst, ← pre_succ D b hb']

/-- After the last of the 64 grid points the running total is the reference's total, for any family of
    distance matrices: a minimum over 2048 columns is the minimum of the two tiles' minima, a sum over 2048
    columns is the sum of the two tiles' sums, and sums over the extended reals may be re-ordered. -/
theorem chain_last (D : Fin 32 → Mat) : (chain D 63 (by decide)).1 = refTotal D := by
  have h62 := chain_even_point D 31 (by decide) 62 (by decide) rfl
  have h63 := chain_final D 62 (by decide) (by decide) rfl ⟨31, by decide⟩ rfl
  have hp : pre D 31 + entrySum (D ⟨31, by decide⟩) = pre D 32 := (pre_succ D 31 (by decide)).symm
  rw [h62, stepSecond_stepFirst, hp] at h63
  refine h63.trans ?_
  unfold refTotal
  rw [Ideal.div_coe (y := 32) (by norm_num) _, zero_add]
  refine congrArg (fun x => x * ((1 / 32 : ℝ) : EReal)) ?_
  unfold pre
  rw [← Fin.sum_univ_eq_sum_range (fun k => if h : k < 32 then entrySum (D ⟨k, h⟩) else 0) 32]
  refine Finset.sum_congr rfl (fun b _ => ?_)
  show (if h : b.val < 32 then entrySum (D ⟨b.val, h⟩) else 0) = _
  rw [dif_pos b.isLt]
  exact Finset.sum_add_distrib.symm

end Cert.Chamfer

end
-- ==== Proof.DistAlgebra.lean ====
/-
  The two forms of the clamped squared distance agree on points with real coordinates.
-/
import proofs.«145622_j20203526161089_1_alg».proof.Proof.Spec

noncomputable section

namespace Cert.Chamfer

/-- The squared norm of a point with real coordinates is the coercion of the real sum of squares. -/
theorem nrm_coe (p : Pt) (a : Fin 3 → ℝ) (ha : ∀ d, p d = (a d : EReal)) :
    nrm p = ((a 0 * a 0 + a 1 * a 1 + a 2 * a 2 : ℝ) : EReal) := by
  unfold nrm
  rw [Fin.sum_univ_three, ha 0, ha 1, ha 2]
  simp only [EReal.coe_add, EReal.coe_mul]

/-- The inner product of two points with real coordinates is the coercion of the real inner product. -/
theorem dotp_coe (p q : Pt) (a b : Fin 3 → ℝ) (ha : ∀ d, p d = (a d : EReal)) (hb : ∀ d, q d = (b d : EReal)) :
    dotp p q = ((a 0 * b 0 + a 1 * b 1 + a 2 * b 2 : ℝ) : EReal) := by
  unfold dotp
  rw [Fin.sum_univ_three, ha 0, ha 1, ha 2, hb 0, hb 1, hb 2]
  simp only [EReal.coe_add, EReal.coe_mul]

/-- On points whose coordinates are real numbers the kernel's five-term augmented product is the reference's
    |p|² + |q|² - 2 p·q: a polynomial identity over the reals, so the two clamped distances are one number. -/
theorem dK_eq_dR (p q : Pt) (hp : ∀ d, ∃ r : ℝ, p d = (r : EReal)) (hq : ∀ d, ∃ r : ℝ, q d = (r : EReal)) :
    dK p q = dR p q := by
  choose a ha using hp
  choose b hb using hq
  unfold dK dR
  rw [nrm_coe p a ha, nrm_coe q b hb, dotp_coe p q a b ha hb, ha 0, ha 1, ha 2, hb 0, hb 1, hb 2]
  -- both unclamped arguments are coercions of real expressions: 0 and 1 are absorbed, the rest is moved into ℝ
  rw [one_mul, mul_one, zero_add, zero_add]
  simp only [← EReal.coe_mul, ← EReal.coe_add, ← EReal.coe_sub]
  congr 2
  ring

end Cert.Chamfer

end
-- ==== Proof.Finite.lean ====
/-
  What the precondition says: every entry of both input arrays is a real number.
-/
import proofs.«145622_j20203526161089_1_alg».proof.Pre_finite_inputs
import proofs.«145622_j20203526161089_1_alg».proof.Proof.Gen.Pre_finite_inputs
import proofs.«145622_j20203526161089_1_alg».proof.Proof.Consts
import Idealize.ShloMosaic.PureOps.Ideal
import Idealize.ShloMosaic.Lib.ReduceAll

noncomputable section

namespace Cert.Chamfer

open Idealize.ShloMosaic

/-- An extended real whose absolute value, formed as the larger of it and its negation, lies below plus infinity
    is a real number: at either infinity that larger one is plus infinity itself. -/
theorem real_of_abs_lt_top (a : EReal) (h : max a (-a) < ⊤) : ∃ r : ℝ, a = (r : EReal) := by
  induction a using EReal.rec with
  | bot => exact absurd h (by simp)
  | top => exact absurd h (by simp)
  | coe r => exact ⟨r, rfl⟩

/-- The ordered less-than comparison, read back: if it answers one, the strict inequality holds. -/
theorem lt_of_cmp_olt (a b : EReal) (h : Ideal.cmp .olt a b = 1#1) : a < b := by
  by_contra hn
  have h0 : Ideal.cmp .olt a b = 0#1 := by
    simp only [Ideal.cmp, decide_eq_false hn]; rfl
  rw [h0] at h
  exact absurd h (by decide)

/-- One half of the precondition, element by element: if the comparison of |x| against the broadcast of plus
    infinity answers one at an index, the entry there is a real number. -/
theorem real_of_entry (x : FVec Ideal Cert.Pre_finite_inputs.S32x2048x3 .f32) (i : Cert.Pre_finite_inputs.S32x2048x3.Idx)
    (e : cmpf .olt (Host.absf x)
        (broadcastInDim Cert.Pre_finite_inputs.S32x2048x3 ![] Cert.Pre_finite_inputs.Facts.bcast_S_S32x2048x3
          (constant (F := Ideal) Cert.Pre_finite_inputs.S_ .f32 0x7F800000#32)) i = 1#1) :
    ∃ r : ℝ, x i = (r : EReal) := by
  have e1 : Ideal.cmp .olt (max (x i) (-(x i))) ⊤ = 1#1 := by
    rw [← Cert.Chamfer.Consts.w_top]
    exact e
  exact real_of_abs_lt_top _ (lt_of_cmp_olt _ _ e1)

/-- If the printed precondition evaluates to all ones on two arrays, read at the ideal instance, then every
    entry of each array is (the coercion of) a real number: |x| < +inf excludes both infinities. -/
theorem real_of_pre (x0 x1 : FVec Ideal Cert.Pre_finite_inputs.S32x2048x3 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h (fun a => a.elim0)
  dsimp only [Cert.Pre_finite_inputs.fn] at h0
  obtain ⟨ha, hb⟩ := IntOp.andi_eq_one.1 h0
  haveI : Subsingleton Cert.Pre_finite_inputs.S_.Idx := ⟨fun a b => funext fun d => d.elim0⟩
  exact ⟨fun i => real_of_entry x0 i (Host.reduce_andi_all _ _ _ _ _ ha i),
         fun i => real_of_entry x1 i (Host.reduce_andi_all _ _ _ _ _ hb i)⟩

end Cert.Chamfer

end
-- ==== Proof.lean ====
/-
  The certificate: a batched Chamfer loss between two batches of 32 clouds of 2048 points in 3-space,
      ( Σ_b Σ_i ( min_n D_b n i + min_m D_b i m ) ) / 32,   D_b n m = max (|x_bn - y_bm|², 0),
  computed by a kernel that walks each batch entry's second cloud in two tiles of 1024 points, against a plain
  whole-array reference.

  The kernel forms D as one five-term product of augmented rows, the reference as |x|² + |y|² - 2 x·y; on real
  inputs (the precondition) the two are one number. The kernel carries a running total and running row minima
  across its 64 grid points; point by point that state is a chain whose last total is the reference's total: a
  minimum over 2048 columns is the minimum of two tiles' minima, a sum over 2048 columns the sum of two tiles'
  sums, and the final product with 1/32 is the reference's quotient by 32. Sums over the extended reals may be
  re-ordered freely, so finiteness is used for the distance's two forms only.

  The three frames: the kernel's two by the generated frame certificates, the reference's by its generated run
  with the result dropped. Nothing was rewritten by the idealization, so its sanctioning claim is trivial.
-/
import proofs.«145622_j20203526161089_1_alg».proof.Defs
import proofs.«145622_j20203526161089_1_alg».proof.Proof.Gen.Kernel
import proofs.«145622_j20203526161089_1_alg».proof.Proof.Gen.Kernel.Skeleton
import proofs.«145622_j20203526161089_1_alg».proof.Proof.Gen.Kernel.Launch
import proofs.«145622_j20203526161089_1_alg».proof.Proof.Gen.Kernel.Points
import proofs.«145622_j20203526161089_1_alg».proof.Proof.Gen.Kernel.Frame
import proofs.«145622_j20203526161089_1_alg».proof.Proof.Gen.KernelIdeal
import proofs.«145622_j20203526161089_1_alg».proof.Proof.Gen.KernelIdeal.Skeleton
import proofs.«145622_j20203526161089_1_alg».proof.Proof.Gen.KernelIdeal.Launch
import proofs.«145622_j20203526161089_1_alg».proof.Proof.Gen.KernelIdeal.Points
import proofs.«145622_j20203526161089_1_alg».proof.Proof.Gen.KernelIdeal.Frame
import proofs.«145622_j20203526161089_1_alg».proof.Proof.Gen.ReferenceIdeal
import proofs.«145622_j20203526161089_1_alg».proof.Proof.Gen.Pre_finite_inputs
import proofs.«145622_j20203526161089_1_alg».proof.Proof.Gen.ReferenceIdeal.Run
import proofs.«145622_j20203526161089_1_alg».proof.Proof.Gen.ReferenceIdeal.Read
import proofs.«145622_j20203526161089_1_alg».proof.Proof.KernelRun
import proofs.«145622_j20203526161089_1_alg».proof.Proof.RefValue
import proofs.«145622_j20203526161089_1_alg».proof.Proof.ChainAlgebra
import proofs.«145622_j20203526161089_1_alg».proof.Proof.DistAlgebra
import proofs.«145622_j20203526161089_1_alg».proof.Proof.Finite
import Idealize.ShloMosaic.Adequacy
import Idealize.ShloMosaic.Init

noncomputable section

namespace Cert.Proof

open Idealize.ShloMosaic Idealize.SL.Sem Idealize.ShloMosaic.ValueIdx Cert.Chamfer

/-- On batches with real entries the distance matrices' two forms agree, entry by entry. -/
theorem distK_eq_distR (X Y : Batch) (hX : ∀ i, ∃ r : ℝ, X i = (r : EReal)) (hY : ∀ i, ∃ r : ℝ, Y i = (r : EReal)) :
    distK X Y = distR X Y := by
  funext b n k
  exact dK_eq_dR _ _ (fun d => hX (ix3 b n d)) (fun d => hY (ix3 b k d))

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the chain's last total: the kernel by its run read as a value, the reference because
    its total over the reference-form distances is the chain's last total over the kernel-form ones, the two
    forms agreeing on the real entries the precondition grants. -/
theorem algebraic : Cert.algebraic_KernelIdeal_ReferenceIdeal := by
  intro m ρ m' ρ' hpre hagree
  refine ⟨fun c => fun _ => (chain (Cert.KernelIdeal.ChamferValue.DK m c) 63 (by decide)).1,
    Cert.KernelIdeal.ChamferValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2]
  obtain ⟨hX, hY⟩ := real_of_pre _ _ (hpre c)
  funext j
  obtain rfl := eq_ix0 j
  rw [Cert.Chamfer.RefValue.ref_eq, ← chain_last]
  show (chain (distR _ _) 63 _).1 = (chain (distK _ _) 63 _).1
  rw [distK_eq_distR _ _ hX hY]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
